-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S250000x3 : S_.BroadcastsInDim S250000x3 (![] : Fin 0 → Fin S250000x3.rank)
  reducesTo_S250000x3_S_d0_1 : S250000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S250000x3 .f32) (main_arg1 : IVec S2x4000000 32) (main_arg2 : FVec F S3x16 .f32) (main_arg3 : FVec F S16 .f32) (main_arg4 : FVec F S16x7 .f32) (main_arg5 : FVec F S7 .f32) : IVec S_ 1 :=
  let main_v0 : FVec F S250000x3 .f32 := Host.absf main_arg0
  let main_cst : FVec F S_ .f32 := constant S_ .f32 0x7F800000#32
  let main_v1 : FVec F S250000x3 .f32 := broadcastInDim S250000x3 ![] bcast_S_S250000x3 main_cst
  let main_v2 : IVec S250000x3 1 := cmpf .olt main_v0 main_v1
  let main_c : IVec S_ 1 := constantI S_ 1 1#1
  let main_v3 : IVec S_ 1 := (fun x v => Host.reduce IntOp.andi x v reducesTo_S250000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S250000 : Shape := ⟨1, ![250000]⟩
abbrev S1x4000000 : Shape := ⟨2, ![1, 4000000]⟩
abbrev S4000000 : Shape := ⟨1, ![4000000]⟩
abbrev S4250000 : Shape := ⟨1, ![4250000]⟩
abbrev S_ : Shape := ⟨0, ![]⟩
abbrev S4250000x1 : Shape := ⟨2, ![4250000, 1]⟩
abbrev S250000x16 : Shape := ⟨2, ![250000, 16]⟩
abbrev S10000x3 : Shape := ⟨2, ![10000, 3]⟩
abbrev S10000x16 : Shape := ⟨2, ![10000, 16]⟩
abbrev S4250000x16 : Shape := ⟨2, ![4250000, 16]⟩
abbrev S10000x1 : Shape := ⟨2, ![10000, 1]⟩
abbrev S1x16 : Shape := ⟨2, ![1, 16]⟩
abbrev S250000x7 : Shape := ⟨2, ![250000, 7]⟩
abbrev S10000x7 : Shape := ⟨2, ![10000, 7]⟩
abbrev S4250000x7 : Shape := ⟨2, ![4250000, 7]⟩
abbrev S1x7 : Shape := ⟨2, ![1, 7]⟩

abbrev nBuf : Space → Nat
  | .hbm => 80
  | .vmem => 32
  | .smem => 0
  | _ => 0

abbrev bufTy : (tb : Table) → Fin (tcTables nBuf tb) → BufTy
  | .hbm, ⟨0, _⟩ => ⟨S250000x3, .f32⟩
  | .hbm, ⟨1, _⟩ => ⟨S2x4000000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S250000, .i32⟩
  | .hbm, ⟨7, _⟩ => ⟨S1x4000000, .i32⟩
  | .hbm, ⟨8, _⟩ => ⟨S4000000, .i32⟩
  | .hbm, ⟨9, _⟩ => ⟨S4250000, .i32⟩
  | .hbm, ⟨10, _⟩ => ⟨S1x4000000, .i32⟩
  | .hbm, ⟨11, _⟩ => ⟨S4000000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S250000, .f32⟩
  | .hbm, ⟨25, _⟩ => ⟨S250000, .f32⟩
  | .hbm, ⟨26, _⟩ => ⟨S_, .i32⟩
  | .hbm, ⟨27, _⟩ => ⟨S4250000, .i32⟩
  | .hbm, ⟨28, _⟩ => ⟨S4250000, .i1⟩
  | .hbm, ⟨29, _⟩ => ⟨S_, .i32⟩
  | .hbm, ⟨30, _⟩ => ⟨S4250000, .i32⟩
  | .hbm, ⟨31, _⟩ => ⟨S4250000, .i32⟩
  | .hbm, ⟨32, _⟩ => ⟨S4250000, .i32⟩
  | .hbm, ⟨33, _⟩ => ⟨S4250000x1, .i32⟩
  | .hbm, ⟨34, _⟩ => ⟨S4250000, .f32⟩
  | .hbm, ⟨35, _⟩ => ⟨S_, .i32⟩
  | .hbm, ⟨36, _⟩ => ⟨S4250000, .i32⟩
  | .hbm, ⟨37, _⟩ => ⟨S4250000, .i1⟩
  | .hbm, ⟨38, _⟩ => ⟨S_, .i32⟩
  | .hbm, ⟨39, _⟩ => ⟨S4250000, .i32⟩
  | .hbm, ⟨40, _⟩ => ⟨S4250000, .i32⟩
  | .hbm, ⟨41, _⟩ => ⟨S4250000, .i32⟩
  | .hbm, ⟨42, _⟩ => ⟨S4250000x1, .i32⟩
  | .hbm, ⟨43, _⟩ => ⟨S4250000, .f32⟩
  | .hbm, ⟨44, _⟩ => ⟨S4250000, .f32⟩
  | .hbm, ⟨45, _⟩ => ⟨S4250000x1, .f32⟩
  | .hbm, ⟨46, _⟩ => ⟨S250000x16, .f32⟩
  | .hbm, ⟨47, _⟩ => ⟨S_, .i32⟩
  | .hbm, ⟨48, _⟩ => ⟨S4250000, .i32⟩
  | .hbm, ⟨49, _⟩ => ⟨S4250000, .i1⟩
  | .hbm, ⟨50, _⟩ => ⟨S_, .i32⟩
  | .hbm, ⟨51, _⟩ => ⟨S4250000, .i32⟩
  | .hbm, ⟨52, _⟩ => ⟨S4250000, .i32⟩
  | .hbm, ⟨53, _⟩ => ⟨S4250000, .i32⟩
  | .hbm, ⟨54, _⟩ => ⟨S4250000x1, .i32⟩
  | .hbm, ⟨55, _⟩ => ⟨S4250000x16, .f32⟩
  | .hbm, ⟨56, _⟩ => ⟨S4250000x16, .f32⟩
  | .hbm, ⟨57, _⟩ => ⟨S_, .f32⟩
  | .hbm, ⟨58, _⟩ => ⟨S250000x16, .f32⟩
  | .hbm, ⟨59, _⟩ => ⟨S4250000x1, .i32⟩
  | .hbm, ⟨60, _⟩ => ⟨S250000x16, .f32⟩
  | .hbm, ⟨61, _⟩ => ⟨S1x16, .f32⟩
  | .hbm, ⟨62, _⟩ => ⟨S250000x16, .f32⟩
  | .hbm, ⟨63, _⟩ => ⟨S250000x7, .f32⟩
  | .hbm, ⟨64, _⟩ => ⟨S_, .i32⟩
  | .hbm, ⟨65, _⟩ => ⟨S4250000, .i32⟩
  | .hbm, ⟨66, _⟩ => ⟨S4250000, .i1⟩
  | .hbm, ⟨67, _⟩ => ⟨S_, .i32⟩
  | .hbm, ⟨68, _⟩ => ⟨S4250000, .i32⟩
  | .hbm, ⟨69, _⟩ => ⟨S4250000, .i32⟩
  | .hbm, ⟨70, _⟩ => ⟨S4250000, .i32⟩
  | .hbm, ⟨71, _⟩ => ⟨S4250000x1, .i32⟩
  | .hbm, ⟨72, _⟩ => ⟨S4250000x7, .f32⟩
  | .hbm, ⟨73, _⟩ => ⟨S4250000x7, .f32⟩
  | .hbm, ⟨74, _⟩ => ⟨S_, .f32⟩
  | .hbm, ⟨75, _⟩ => ⟨S250000x7, .f32⟩
  | .hbm, ⟨76, _⟩ => ⟨S4250000x1, .i32⟩
  | .hbm, ⟨77, _⟩ => ⟨S250000x7, .f32⟩
  | .hbm, ⟨78, _⟩ => ⟨S1x7, .f32⟩
  | .hbm, ⟨79, _⟩ => ⟨S250000x7, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x1, .f32⟩
  | .local _ .vmem, ⟨8, _⟩ => ⟨S10000x1, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x7, .f32⟩
  | .local _ .vmem, ⟨19, _⟩ => ⟨S10000x7, .f32⟩
  | .local _ .vmem, ⟨20, _⟩ => ⟨S10000x7, .f32⟩
  | .local _ .vmem, ⟨21, _⟩ => ⟨S10000x7, .f32⟩
  | .local _ .vmem, ⟨22, _⟩ => ⟨S10000x7, .f32⟩
  | .local _ .vmem, ⟨23, _⟩ => ⟨S10000x1, .f32⟩
  | .local _ .vmem, ⟨24, _⟩ => ⟨S10000x1, .f32⟩
  | .local _ .vmem, ⟨25, _⟩ => ⟨S10000x7, .f32⟩
  | .local _ .vmem, ⟨26, _⟩ => ⟨S10000x7, .f32⟩
  | .local _ .vmem, ⟨27, _⟩ => ⟨S10000x7, .f32⟩
  | .local _ .vmem, ⟨28, _⟩ => ⟨S10000x7, .f32⟩
  | .local _ .vmem, ⟨29, _⟩ => ⟨S1x7, .f32⟩
  | .local _ .vmem, ⟨30, _⟩ => ⟨S10000x7, .f32⟩
  | .local _ .vmem, ⟨31, _⟩ => ⟨S10000x7, .f32⟩
  | _, _ => ⟨S250000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![425], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![425], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x4000000_S1x4000000_0_0 : S2x4000000.Slices ![0, 0] S1x4000000
  shapeCasts_S1x4000000_S4000000 : S1x4000000.ShapeCasts S4000000
  concatenates_S4000000_S250000_S4250000_d0 : Shape.Concatenates [S4000000, S250000] S4250000 0
  slices_S2x4000000_S1x4000000_1_0 : S2x4000000.Slices ![1, 0] S1x4000000
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  bcast_S_S250000x16 : S_.BroadcastsInDim S250000x16 (![] : Fin 0 → Fin S250000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  broadcasts_S10000x1_S10000x7 : S10000x1.Broadcasts S10000x7
  bcast_S_S250000x7 : S_.BroadcastsInDim S250000x7 (![] : Fin 0 → Fin S250000x7.rank)
  shapeCasts_S7_S1x7 : S7.ShapeCasts S1x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  scatter_S250000_S4250000x1_S4250000_n_0_0_1_wf : ScatterDims.WF S250000 S4250000x1 S4250000 [] [0] [0] 1
  gather_S250000_S4250000x1_S4250000_n_0_n_n_0_1_1_wf : GatherDims.WF S250000 S4250000x1 S4250000 [] [0] [] [0] [] 1 ![1]
  dot_S10000x3_S3x16_S10000x16_1_0_0_1_n_n_wf : DotDims.WF S10000x3 S3x16 S10000x16 [1] [0] [0] [1] [] []
  gather_S250000x16_S4250000x1_S4250000x16_1_0_n_n_0_1_116_wf : GatherDims.WF S250000x16 S4250000x1 S4250000x16 [1] [0] [] [0] [] 1 ![1, 16]
  scatter_S250000x16_S4250000x1_S4250000x16_1_0_0_1_wf : ScatterDims.WF S250000x16 S4250000x1 S4250000x16 [1] [0] [0] 1
  dot_S10000x16_S16x7_S10000x7_1_0_0_1_n_n_wf : DotDims.WF S10000x16 S16x7 S10000x7 [1] [0] [0] [1] [] []
  gather_S250000x7_S4250000x1_S4250000x7_1_0_n_n_0_1_17_wf : GatherDims.WF S250000x7 S4250000x1 S4250000x7 [1] [0] [] [0] [] 1 ![1, 7]
  scatter_S250000x7_S4250000x1_S4250000x7_1_0_0_1_wf : ScatterDims.WF S250000x7 S4250000x1 S4250000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S250000x3.size a
  hwx0_0 : ∀ i : grid0.Coords, EltTy.bits .f32 = 32 ∨ (Rect.block (s := S250000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S250000x16.size a
  hwx0_2 : ∀ i : grid0.Coords, EltTy.bits .f32 = 32 ∨ (Rect.block (s := S250000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S4250000x16.size a
  hwx1_0 : ∀ i : grid1.Coords, EltTy.bits .f32 = 32 ∨ (Rect.block (s := S4250000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S4250000x1.size a
  hwx1_1 : ∀ i : grid1.Coords, EltTy.bits .f32 = 32 ∨ (Rect.block (s := S4250000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S4250000x16.size a
  hwx1_2 : ∀ i : grid1.Coords, EltTy.bits .f32 = 32 ∨ (Rect.block (s := S4250000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S250000x16.size a
  hwx2_0 : ∀ i : grid2.Coords, EltTy.bits .f32 = 32 ∨ (Rect.block (s := S250000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S250000x16.size a
  hwx2_2 : ∀ i : grid2.Coords, EltTy.bits .f32 = 32 ∨ (Rect.block (s := S250000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S250000x16.size a
  hwx3_0 : ∀ i : grid3.Coords, EltTy.bits .f32 = 32 ∨ (Rect.block (s := S250000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x7.size a ≤ S16x7.size a
  hwx3_1 : ∀ i : grid3.Coords, EltTy.bits .f32 = 32 ∨ (Rect.block (s := S16x7) S16x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S250000x7.size a
  hwx3_2 : ∀ i : grid3.Coords, EltTy.bits .f32 = 32 ∨ (Rect.block (s := S250000x7) S10000x7.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x7.size a ≤ S4250000x7.size a
  hwx4_0 : ∀ i : grid4.Coords, EltTy.bits .f32 = 32 ∨ (Rect.block (s := S4250000x7) S10000x7.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S4250000x1.size a
  hwx4_1 : ∀ i : grid4.Coords, EltTy.bits .f32 = 32 ∨ (Rect.block (s := S4250000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x7.size a ≤ S4250000x7.size a
  hwx4_2 : ∀ i : grid4.Coords, EltTy.bits .f32 = 32 ∨ (Rect.block (s := S4250000x7) S10000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x7.size a ≤ S250000x7.size a
  hwx5_0 : ∀ i : grid5.Coords, EltTy.bits .f32 = 32 ∨ (Rect.block (s := S250000x7) S10000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x7.size a ≤ S250000x7.size a
  hwx5_2 : ∀ i : grid5.Coords, EltTy.bits .f32 = 32 ∨ (Rect.block (s := S250000x7) S10000x7.size (cc5_transform_2 i) (hinb5_2 i)).WholeWords (EltTy.packing .f32)

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000_S4250000x1_S4250000_n_0_n_n_0_1_1 : GatherDims S250000 S4250000x1 S4250000 where
  offsetDims := []
  collapsedSliceDims := [0]
  operandBatchingDims := []
  startIndicesBatchingDims := []
  startIndexMap := [0]
  indexVectorDim := 1
  sliceSizes := ![1]
  wf := gather_S250000_S4250000x1_S4250000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S250000x16_S4250000x1_S4250000x16_1_0_n_n_0_1_116 : GatherDims S250000x16 S4250000x1 S4250000x16 where
  offsetDims := [1]
  collapsedSliceDims := [0]
  operandBatchingDims := []
  startIndicesBatchingDims := []
  startIndexMap := [0]
  indexVectorDim := 1
  sliceSizes := ![1, 16]
  wf := gather_S250000x16_S4250000x1_S4250000x16_1_0_n_n_0_1_116_wf
def scatter_S250000x16_S4250000x1_S4250000x16_1_0_0_1 : ScatterDims S250000x16 S4250000x1 S4250000x16 where
  updateWindowDims := [1]
  insertedWindowDims := [0]
  scatterDimsToOperandDims := [0]
  indexVectorDim := 1
  wf := scatter_S250000x16_S4250000x1_S4250000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S250000x7_S4250000x1_S4250000x7_1_0_n_n_0_1_17 : GatherDims S250000x7 S4250000x1 S4250000x7 where
  offsetDims := [1]
  collapsedSliceDims := [0]
  operandBatchingDims := []
  startIndicesBatchingDims := []
  startIndexMap := [0]
  indexVectorDim := 1
  sliceSizes := ![1, 7]
  wf := gather_S250000x7_S4250000x1_S4250000x7_1_0_n_n_0_1_17_wf
def scatter_S250000x7_S4250000x1_S4250000x7_1_0_0_1 : ScatterDims S250000x7 S4250000x1 S4250000x7 where
  updateWindowDims := [1]
  insertedWindowDims := [0]
  scatterDimsToOperandDims := [0]
  indexVectorDim := 1
  wf := scatter_S250000x7_S4250000x1_S4250000x7_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S10000x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S10000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S10000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S250000x3 : Shape := ⟨2, ![250000, 3]⟩
abbrev S2x4000000 : Shape := ⟨2, ![2, 4000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S250000 : Shape := ⟨1, ![250000]⟩
abbrev S1x4000000 : Shape := ⟨2, ![1, 4000000]⟩
abbrev S4000000 : Shape := ⟨1, ![4000000]⟩
abbrev S4250000 : Shape := ⟨1, ![4250000]⟩
abbrev S_ : Shape := ⟨0, ![]⟩
abbrev S4250000x1 : Shape := ⟨2, ![4250000, 1]⟩
abbrev S250000x16 : Shape := ⟨2, ![250000, 16]⟩
abbrev S4250000x16 : Shape := ⟨2, ![4250000, 16]⟩
abbrev S1x16 : Shape := ⟨2, ![1, 16]⟩
abbrev S250000x7 : Shape := ⟨2, ![250000, 7]⟩
abbrev S4250000x7 : Shape := ⟨2, ![4250000, 7]⟩
abbrev S1x7 : Shape := ⟨2, ![1, 7]⟩

abbrev nBuf : Space → Nat
  | .hbm => 88
  | .vmem => 0
  | .smem => 0
  | _ => 0

abbrev bufTy : (tb : Table) → Fin (tcTables nBuf tb) → BufTy
  | .hbm, ⟨0, _⟩ => ⟨S250000x3, .f32⟩
  | .hbm, ⟨1, _⟩ => ⟨S2x4000000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S250000, .i32⟩
  | .hbm, ⟨7, _⟩ => ⟨S1x4000000, .i32⟩
  | .hbm, ⟨8, _⟩ => ⟨S4000000, .i32⟩
  | .hbm, ⟨9, _⟩ => ⟨S4250000, .i32⟩
  | .hbm, ⟨10, _⟩ => ⟨S1x4000000, .i32⟩
  | .hbm, ⟨11, _⟩ => ⟨S4000000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S250000, .f32⟩
  | .hbm, ⟨25, _⟩ => ⟨S250000, .f32⟩
  | .hbm, ⟨26, _⟩ => ⟨S_, .i32⟩
  | .hbm, ⟨27, _⟩ => ⟨S4250000, .i32⟩
  | .hbm, ⟨28, _⟩ => ⟨S4250000, .i1⟩
  | .hbm, ⟨29, _⟩ => ⟨S_, .i32⟩
  | .hbm, ⟨30, _⟩ => ⟨S4250000, .i32⟩
  | .hbm, ⟨31, _⟩ => ⟨S4250000, .i32⟩
  | .hbm, ⟨32, _⟩ => ⟨S4250000, .i32⟩
  | .hbm, ⟨33, _⟩ => ⟨S4250000x1, .i32⟩
  | .hbm, ⟨34, _⟩ => ⟨S4250000, .f32⟩
  | .hbm, ⟨35, _⟩ => ⟨S_, .i32⟩
  | .hbm, ⟨36, _⟩ => ⟨S4250000, .i32⟩
  | .hbm, ⟨37, _⟩ => ⟨S4250000, .i1⟩
  | .hbm, ⟨38, _⟩ => ⟨S_, .i32⟩
  | .hbm, ⟨39, _⟩ => ⟨S4250000, .i32⟩
  | .hbm, ⟨40, _⟩ => ⟨S4250000, .i32⟩
  | .hbm, ⟨41, _⟩ => ⟨S4250000, .i32⟩
  | .hbm, ⟨42, _⟩ => ⟨S4250000x1, .i32⟩
  | .hbm, ⟨43, _⟩ => ⟨S4250000, .f32⟩
  | .hbm, ⟨44, _⟩ => ⟨S4250000, .f32⟩
  | .hbm, ⟨45, _⟩ => ⟨S250000x16, .f32⟩
  | .hbm, ⟨46, _⟩ => ⟨S4250000x1, .f32⟩
  | .hbm, ⟨47, _⟩ => ⟨S_, .i32⟩
  | .hbm, ⟨48, _⟩ => ⟨S4250000, .i32⟩
  | .hbm, ⟨49, _⟩ => ⟨S4250000, .i1⟩
  | .hbm, ⟨50, _⟩ => ⟨S_, .i32⟩
  | .hbm, ⟨51, _⟩ => ⟨S4250000, .i32⟩
  | .hbm, ⟨52, _⟩ => ⟨S4250000, .i32⟩
  | .hbm, ⟨53, _⟩ => ⟨S4250000, .i32⟩
  | .hbm, ⟨54, _⟩ => ⟨S4250000x1, .i32⟩
  | .hbm, ⟨55, _⟩ => ⟨S4250000x16, .f32⟩
  | .hbm, ⟨56, _⟩ => ⟨S4250000x16, .f32⟩
  | .hbm, ⟨57, _⟩ => ⟨S4250000x16, .f32⟩
  | .hbm, ⟨58, _⟩ => ⟨S_, .f32⟩
  | .hbm, ⟨59, _⟩ => ⟨S250000x16, .f32⟩
  | .hbm, ⟨60, _⟩ => ⟨S4250000x1, .i32⟩
  | .hbm, ⟨61, _⟩ => ⟨S250000x16, .f32⟩
  | .hbm, ⟨62, _⟩ => ⟨S1x16, .f32⟩
  | .hbm, ⟨63, _⟩ => ⟨S250000x16, .f32⟩
  | .hbm, ⟨64, _⟩ => ⟨S250000x16, .f32⟩
  | .hbm, ⟨65, _⟩ => ⟨S_, .f32⟩
  | .hbm, ⟨66, _⟩ => ⟨S250000x16, .f32⟩
  | .hbm, ⟨67, _⟩ => ⟨S250000x16, .f32⟩
  | .hbm, ⟨68, _⟩ => ⟨S250000x7, .f32⟩
  | .hbm, ⟨69, _⟩ => ⟨S4250000x1, .f32⟩
  | .hbm, ⟨70, _⟩ => ⟨S_, .i32⟩
  | .hbm, ⟨71, _⟩ => ⟨S4250000, .i32⟩
  | .hbm, ⟨72, _⟩ => ⟨S4250000, .i1⟩
  | .hbm, ⟨73, _⟩ => ⟨S_, .i32⟩
  | .hbm, ⟨74, _⟩ => ⟨S4250000, .i32⟩
  | .hbm, ⟨75, _⟩ => ⟨S4250000, .i32⟩
  | .hbm, ⟨76, _⟩ => ⟨S4250000, .i32⟩
  | .hbm, ⟨77, _⟩ => ⟨S4250000x1, .i32⟩
  | .hbm, ⟨78, _⟩ => ⟨S4250000x7, .f32⟩
  | .hbm, ⟨79, _⟩ => ⟨S4250000x7, .f32⟩
  | .hbm, ⟨80, _⟩ => ⟨S4250000x7, .f32⟩
  | .hbm, ⟨81, _⟩ => ⟨S_, .f32⟩
  | .hbm, ⟨82, _⟩ => ⟨S250000x7, .f32⟩
  | .hbm, ⟨83, _⟩ => ⟨S4250000x1, .i32⟩
  | .hbm, ⟨84, _⟩ => ⟨S250000x7, .f32⟩
  | .hbm, ⟨85, _⟩ => ⟨S1x7, .f32⟩
  | .hbm, ⟨86, _⟩ => ⟨S250000x7, .f32⟩
  | .hbm, ⟨87, _⟩ => ⟨S250000x7, .f32⟩
  | _, _ => ⟨S250000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S250000_S4250000_d0 : Shape.Concatenates [S4000000, S250000] S4250000 0
  slices_S2x4000000_S1x4000000_1_0 : S2x4000000.Slices ![1, 0] S1x4000000
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  bcast_S4250000x1_S4250000x16_0_1 : S4250000x1.BroadcastsInDim S4250000x16 (![0, 1] : Fin 2 → Fin S4250000x16.rank)
  bcast_S_S250000x16 : S_.BroadcastsInDim S250000x16 (![] : Fin 0 → Fin S250000x16.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S4250000x1_S4250000x7_0_1 : S4250000x1.BroadcastsInDim S4250000x7 (![0, 1] : Fin 2 → Fin S4250000x7.rank)
  bcast_S_S250000x7 : S_.BroadcastsInDim S250000x7 (![] : Fin 0 → Fin S250000x7.rank)
  bcast_S7_S1x7_1 : S7.BroadcastsInDim S1x7 (![1] : Fin 1 → Fin S1x7.rank)
  bcast_S1x7_S250000x7_0_1 : S1x7.BroadcastsInDim S250000x7 (![0, 1] : Fin 2 → Fin S250000x7.rank)
  scatter_S250000_S4250000x1_S4250000_n_0_0_1_wf : ScatterDims.WF S250000 S4250000x1 S4250000 [] [0] [0] 1
  gather_S250000_S4250000x1_S4250000_n_0_n_n_0_1_1_wf : GatherDims.WF S250000 S4250000x1 S4250000 [] [0] [] [0] [] 1 ![1]
  dot_S250000x3_S3x16_S250000x16_1_0_0_1_n_n_wf : DotDims.WF S250000x3 S3x16 S250000x16 [1] [0] [0] [1] [] []
  gather_S250000x16_S4250000x1_S4250000x16_1_0_n_n_0_1_116_wf : GatherDims.WF S250000x16 S4250000x1 S4250000x16 [1] [0] [] [0] [] 1 ![1, 16]
  scatter_S250000x16_S4250000x1_S4250000x16_1_0_0_1_wf : ScatterDims.WF S250000x16 S4250000x1 S4250000x16 [1] [0] [0] 1
  dot_S250000x16_S16x7_S250000x7_1_0_0_1_n_n_wf : DotDims.WF S250000x16 S16x7 S250000x7 [1] [0] [0] [1] [] []
  gather_S250000x7_S4250000x1_S4250000x7_1_0_n_n_0_1_17_wf : GatherDims.WF S250000x7 S4250000x1 S4250000x7 [1] [0] [] [0] [] 1 ![1, 7]
  scatter_S250000x7_S4250000x1_S4250000x7_1_0_0_1_wf : ScatterDims.WF S250000x7 S4250000x1 S4250000x7 [1] [0] [0] 1

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000_S4250000x1_S4250000_n_0_n_n_0_1_1 : GatherDims S250000 S4250000x1 S4250000 where
  offsetDims := []
  collapsedSliceDims := [0]
  operandBatchingDims := []
  startIndicesBatchingDims := []
  startIndexMap := [0]
  indexVectorDim := 1
  sliceSizes := ![1]
  wf := gather_S250000_S4250000x1_S4250000_n_0_n_n_0_1_1_wf
def dot_S250000x3_S3x16_S250000x16_1_0_0_1_n_n : DotDims S250000x3 S3x16 S250000x16 where
  lhsContracting := [1]
  rhsContracting := [0]
  lhsNonContracting := [0]
  rhsNonContracting := [1]
  lhsBatch := []
  rhsBatch := []
  wf := dot_S250000x3_S3x16_S250000x16_1_0_0_1_n_n_wf
def gather_S250000x16_S4250000x1_S4250000x16_1_0_n_n_0_1_116 : GatherDims S250000x16 S4250000x1 S4250000x16 where
  offsetDims := [1]
  collapsedSliceDims := [0]
  operandBatchingDims := []
  startIndicesBatchingDims := []
  startIndexMap := [0]
  indexVectorDim := 1
  sliceSizes := ![1, 16]
  wf := gather_S250000x16_S4250000x1_S4250000x16_1_0_n_n_0_1_116_wf
def scatter_S250000x16_S4250000x1_S4250000x16_1_0_0_1 : ScatterDims S250000x16 S4250000x1 S4250000x16 where
  updateWindowDims := [1]
  insertedWindowDims := [0]
  scatterDimsToOperandDims := [0]
  indexVectorDim := 1
  wf := scatter_S250000x16_S4250000x1_S4250000x16_1_0_0_1_wf
def dot_S250000x16_S16x7_S250000x7_1_0_0_1_n_n : DotDims S250000x16 S16x7 S250000x7 where
  lhsContracting := [1]
  rhsContracting := [0]
  lhsNonContracting := [0]
  rhsNonContracting := [1]
  lhsBatch := []
  rhsBatch := []
  wf := dot_S250000x16_S16x7_S250000x7_1_0_0_1_n_n_wf
def gather_S250000x7_S4250000x1_S4250000x7_1_0_n_n_0_1_17 : GatherDims S250000x7 S4250000x1 S4250000x7 where
  offsetDims := [1]
  collapsedSliceDims := [0]
  operandBatchingDims := []
  startIndicesBatchingDims := []
  startIndexMap := [0]
  indexVectorDim := 1
  sliceSizes := ![1, 7]
  wf := gather_S250000x7_S4250000x1_S4250000x7_1_0_n_n_0_1_17_wf
def scatter_S250000x7_S4250000x1_S4250000x7_1_0_0_1 : ScatterDims S250000x7 S4250000x1 S4250000x7 where
  updateWindowDims := [1]
  insertedWindowDims := [0]
  scatterDimsToOperandDims := [0]
  indexVectorDim := 1
  wf := scatter_S250000x7_S4250000x1_S4250000x7_1_0_0_1_wf

class Facts : Prop extends Facts₀ where

variable [Facts]
-- ==== Proof.HostStages.lean ====
/-
  The host side of the kernel's program, read buffer by buffer, for any float family and from any buffer
  contents `W` a stretch of host operations is entered with. Before the first region the program computes, from
  the edge list alone, the source and target node of every directed edge (the 4000000 given ones followed by one
  self loop per node) and every edge's normalisation weight (the product of the inverse square roots of its two
  endpoints' in-degrees, zero where a degree is not positive): these are word for word the reference's own
  stages. Between the regions the program gathers the dense rows of the edges' source nodes (the row index first
  brought into range: a negative index has the node count added) and sums the scaled messages into their target
  nodes: again the reference's own stages, applied to what the regions leave. Each stretch is read from the
  stages its operands hold on entry.
-/
import proofs.«176165_j463856468564_1_alg».proof.Proof.Gen.KernelIdeal.Launch
import proofs.«176165_j463856468564_1_alg».proof.Proof.RefRead
import Idealize.ShloMosaic.Lib.StableHlo.Run

set_option maxRecDepth 16384

noncomputable section

namespace Cert.KernelIdeal.Host

open Idealize.ShloMosaic Idealize.ShloMosaic.TcCoe Idealize.ShloMosaic.StableHlo Idealize.SL.Sem Cert.KernelIdeal Cert.KernelIdeal.Gen
open Cert.ReferenceIdeal.ReadP

variable {F : FTy → Type} [FloatOps F]
variable (W : Valuation τ sig (Elt F))
variable (x0 : (⟨S250000x3, .f32⟩ : BufTy).Contents (Elt F)) (x1 : (⟨S2x4000000, .i32⟩ : BufTy).Contents (Elt F))
  (x2 : (⟨S3x16, .f32⟩ : BufTy).Contents (Elt F)) (x3 : (⟨S16, .f32⟩ : BufTy).Contents (Elt F))
  (x4 : (⟨S16x7, .f32⟩ : BufTy).Contents (Elt F))

/-! ## The first stretch: from the edge list to the degrees' pieces -/

/-- Every edge's source node. -/
theorem src_of (h : W (Proc.devRef .tc main_arg1) = x1) :
    StableHlo.after hostOps0 W (Proc.devRef .tc main_v3) = val_main_v3 (F := F) x1 := by
  dsimp only [hostOps0]; after_results; rw [h]; rfl

/-- Every edge's target node. -/
theorem tgt_of (h : W (Proc.devRef .tc main_arg1) = x1) :
    StableHlo.after hostOps0 W (Proc.devRef .tc main_v6) = val_main_v6 (F := F) x1 := by
  dsimp only [hostOps0]; after_results; rw [h]; rfl

/-- Where a node's in-degree is positive. -/
theorem degPos_of (h : W (Proc.devRef .tc main_arg1) = x1) :
    StableHlo.after hostOps0 W (Proc.devRef .tc main_v12) = val_main_v12 (F := F) x1 := by
  dsimp only [hostOps0]; after_results; rw [h]; rfl

/-- The inverse square root of a node's in-degree. -/
theorem degRsqrt_of (h : W (Proc.devRef .tc main_arg1) = x1) :
    StableHlo.after hostOps0 W (Proc.devRef .tc main_v13) = val_main_v13 (F := F) x1 := by
  dsimp only [hostOps0]; after_results; rw [h]; rfl

/-- The zero row the selection falls back to. -/
theorem degZero_of : StableHlo.after hostOps0 W (Proc.devRef .tc main_v14) = val_main_v14 (F := F) := by
  dsimp only [hostOps0]; after_results; rfl

/-! ## The selection, and the weights -/

/-- A node's factor: the inverse square root of its degree where that is positive, else zero. -/
theorem nodeFactor_of (h12 : W (Proc.devRef .tc main_v12) = val_main_v12 (F := F) x1)
    (h13 : W (Proc.devRef .tc main_v13) = val_main_v13 (F := F) x1)
    (h14 : W (Proc.devRef .tc main_v14) = val_main_v14 (F := F)) :
    StableHlo.after hostOps0_1 W (Proc.devRef .tc main_v15) = val_main_v15 (F := F) x1 := by
  dsimp only [hostOps0_1]; after_results; rw [h12, h13, h14]; rfl

/-- Every edge's weight, as a column: the product of its two endpoints' factors. -/
theorem weight_of (h15 : W (Proc.devRef .tc main_v15) = val_main_v15 (F := F) x1)
    (h3 : W (Proc.devRef .tc main_v3) = val_main_v3 (F := F) x1)
    (h6 : W (Proc.devRef .tc main_v6) = val_main_v6 (F := F) x1) :
    StableHlo.after hostOps0_2 W (Proc.devRef .tc main_v31) = val_main_v32 (F := F) x1 := by
  dsimp only [hostOps0_2]; after_results_simp; rw [h15, h3, h6]; rfl

/-! ## Between the regions -/

/-- The first layer's gathered messages: the dense rows of the edges' source nodes. -/
theorem gather1_of (h32 : W (Proc.devRef .tc main_v32) = val_main_v31 (F := F) x0 x2)
    (h3 : W (Proc.devRef .tc main_v3) = val_main_v3 (F := F) x1) :
    StableHlo.after hostOps1 W (Proc.devRef .tc main_v39) = val_main_v39 (F := F) x0 x1 x2 := by
  dsimp only [hostOps1]; after_results; rw [h32, h3]; rfl

/-- The first layer's summed messages. -/
theorem scatter1_of (h40 : W (Proc.devRef .tc main_v40) = val_main_v41 (F := F) x0 x1 x2)
    (h6 : W (Proc.devRef .tc main_v6) = val_main_v6 (F := F) x1) :
    StableHlo.after hostOps2 W (Proc.devRef .tc main_v43) = val_main_v44 (F := F) x0 x1 x2 := by
  dsimp only [hostOps2]; after_results; rw [h40, h6]; rfl

/-- The first bias as a [1, 16] row: the same 16 entries. -/
theorem biasRow1_of (h : W (Proc.devRef .tc main_arg3) = x3) :
    StableHlo.after hostOps2 W (Proc.devRef .tc main_v44) = shapeCast S1x16 x3 shapeCasts_S16_S1x16 := by
  dsimp only [hostOps2]; after_results; rw [h]; rfl

/-- The second layer's gathered messages. -/
theorem gather2_of (h46 : W (Proc.devRef .tc main_v46) = val_main_v49 (F := F) x0 x1 x2 x3 x4)
    (h3 : W (Proc.devRef .tc main_v3) = val_main_v3 (F := F) x1) :
    StableHlo.after hostOps4 W (Proc.devRef .tc main_v53) = val_main_v57 (F := F) x0 x1 x2 x3 x4 := by
  dsimp only [hostOps4]; after_results; rw [h46, h3]; rfl

/-- The second layer's summed messages. -/
theorem scatter2_of (h54 : W (Proc.devRef .tc main_v54) = val_main_v59 (F := F) x0 x1 x2 x3 x4)
    (h6 : W (Proc.devRef .tc main_v6) = val_main_v6 (F := F) x1) :
    StableHlo.after hostOps5 W (Proc.devRef .tc main_v57) = val_main_v62 (F := F) x0 x1 x2 x3 x4 := by
  dsimp only [hostOps5]; after_results; rw [h54, h6]; rfl

/-- The second bias as a [1, 7] row: the same 7 entries. -/
theorem biasRow2_of (x5 : (⟨S7, .f32⟩ : BufTy).Contents (Elt F)) (h : W (Proc.devRef .tc main_arg5) = x5) :
    StableHlo.after hostOps5 W (Proc.devRef .tc main_v58) = shapeCast S1x7 x5 shapeCasts_S7_S1x7 := by
  dsimp only [hostOps5]; after_results; rw [h]; rfl

end Cert.KernelIdeal.Host

end
-- ==== Proof.Spec.lean ====
/-
  The layer functions of a two-layer graph convolution over 250000 nodes and 4250000 directed edges (the given
  4000000 and one self loop per node), index by index over the extended reals. A layer is: a dense map of the node
  features (rows of `x` against columns of `w`), each edge's message — the dense row of its source node — scaled
  by the edge's normalisation weight, the messages summed into their target nodes, and a bias row added (with a
  clamp at zero below, in the first layer). The gather of source rows and the sum into target nodes are shared by
  the two programs word for word, so only the three pointwise-or-dense steps are named here.
-/
import Idealize.ShloMosaic.PureOps.Ideal
import Idealize.ShloMosaic.Lib.ValueIdx

noncomputable section

namespace Cert.Gcn

open Idealize.ShloMosaic Idealize.ShloMosaic.ValueIdx

/-- The first dense map: entry (r, j) is the sum over the 3 input features k of x[r, k] · w[k, j]. -/
def dense1 (x : (⟨2, ![250000, 3]⟩ : Shape).Idx → EReal) (w : (⟨2, ![3, 16]⟩ : Shape).Idx → EReal) :
    (⟨2, ![250000, 16]⟩ : Shape).Idx → EReal :=
  fun i => ∑ k : Fin 3, x (ix2 (i 0) k) * w (ix2 k (i 1))

/-- The second dense map: entry (r, j) is the sum over the 16 hidden features k of x[r, k] · w[k, j]. -/
def dense2 (x : (⟨2, ![250000, 16]⟩ : Shape).Idx → EReal) (w : (⟨2, ![16, 7]⟩ : Shape).Idx → EReal) :
    (⟨2, ![250000, 7]⟩ : Shape).Idx → EReal :=
  fun i => ∑ k : Fin 16, x (ix2 (i 0) k) * w (ix2 k (i 1))

/-- Edge e's 16 message entries, each times the edge's one weight n[e, 0]. -/
def scale16 (g : (⟨2, ![4250000, 16]⟩ : Shape).Idx → EReal) (n : (⟨2, ![4250000, 1]⟩ : Shape).Idx → EReal) :
    (⟨2, ![4250000, 16]⟩ : Shape).Idx → EReal :=
  fun i => g i * n (ix2 (i 0) 0)

/-- Edge e's 7 message entries, each times the edge's one weight n[e, 0]. -/
def scale7 (g : (⟨2, ![4250000, 7]⟩ : Shape).Idx → EReal) (n : (⟨2, ![4250000, 1]⟩ : Shape).Idx → EReal) :
    (⟨2, ![4250000, 7]⟩ : Shape).Idx → EReal :=
  fun i => g i * n (ix2 (i 0) 0)

/-- The first layer's epilogue: the bias row added to every node's row, then the larger of that and the zero word. -/
def biasRelu16 (a : (⟨2, ![250000, 16]⟩ : Shape).Idx → EReal) (b : (⟨2, ![1, 16]⟩ : Shape).Idx → EReal) :
    (⟨2, ![250000, 16]⟩ : Shape).Idx → EReal :=
  fun i => max (a i + b (ix2 0 (i 1))) (Ideal.ofBits .f32 0x00000000#32)

/-- The second layer's epilogue: the bias row added to every node's row. -/
def bias7 (a : (⟨2, ![250000, 7]⟩ : Shape).Idx → EReal) (b : (⟨2, ![1, 7]⟩ : Shape).Idx → EReal) :
    (⟨2, ![250000, 7]⟩ : Shape).Idx → EReal :=
  fun i => a i + b (ix2 0 (i 1))

end Cert.Gcn

end
-- ==== Proof.RefBridge.lean ====
/-
  The reference's stages, read at an index, are the layer functions: its dense products are the sums over the one
  contracted axis; its per-edge scaling is the weight column spread along each message row times the message
  (a product of extended reals, so the order of the two factors does not matter); its epilogues add the bias,
  first spread from [d] to [1, d] and then down the rows, and the first clamps below at the zero word.
-/
import proofs.«176165_j463856468564_1_alg».proof.Proof.RefRead
import proofs.«176165_j463856468564_1_alg».proof.Proof.Spec
import Idealize.ShloMosaic.Lib.Pipeline.Value
import Idealize.ShloMosaic.Lib.ValueIdx
import Idealize.ShloMosaic.PureOps.Ideal.Laws

noncomputable section

namespace Cert.ReferenceIdeal.Bridge

open Idealize.ShloMosaic Idealize.ShloMosaic.ValueIdx Cert.ReferenceIdeal Cert.ReferenceIdeal.ReadP Cert.Gcn

/-! ## The dense maps -/

/-- The first host product is the first dense map. -/
theorem dense1_eq (x0 : S250000x3.Idx → EReal) (x2 : S3x16.Idx → EReal) :
    val_main_v31 (F := Ideal) x0 x2 = dense1 x0 x2 := by
  funext i
  rw [val_main_v31_apply]
  unfold dense1
  refine Finset.sum_congr rfl fun k _ => ?_
  have el : lidx_main_v31 i k = ix2 (i 0) k := funext fun a => by
    match a with
    | ⟨0, _⟩ => rfl
    | ⟨1, _⟩ => rfl
  have er : ridx_main_v31 i k = ix2 k (i 1) := funext fun a => by
    match a with
    | ⟨0, _⟩ => rfl
    | ⟨1, _⟩ => rfl
  exact congrArg₂ (· * ·) (congrArg x0 el) (congrArg x2 er)

/-- The second host product is the second dense map of the hidden features. -/
theorem dense2_eq (x0 : S250000x3.Idx → EReal) (x1 : S2x4000000.Idx → BitVec 32) (x2 : S3x16.Idx → EReal)
    (x3 : S16.Idx → EReal) (x4 : S16x7.Idx → EReal) :
    val_main_v49 (F := Ideal) x0 x1 x2 x3 x4 = dense2 (val_main_v48 (F := Ideal) x0 x1 x2 x3) x4 := by
  funext i
  rw [val_main_v49_apply]
  unfold dense2
  refine Finset.sum_congr rfl fun k _ => ?_
  have el : lidx_main_v49 i k = ix2 (i 0) k := funext fun a => by
    match a with
    | ⟨0, _⟩ => rfl
    | ⟨1, _⟩ => rfl
  have er : ridx_main_v49 i k = ix2 k (i 1) := funext fun a => by
    match a with
    | ⟨0, _⟩ => rfl
    | ⟨1, _⟩ => rfl
  exact congrArg₂ (· * ·) (congrArg (val_main_v48 (F := Ideal) x0 x1 x2 x3) el) (congrArg x4 er)

/-! ## The per-edge scaling -/

/-- The weight column spread along 16 columns, times the messages, is the messages scaled row by row. -/
theorem scale16_eq (x0 : S250000x3.Idx → EReal) (x1 : S2x4000000.Idx → BitVec 32) (x2 : S3x16.Idx → EReal) :
    val_main_v41 (F := Ideal) x0 x1 x2 = scale16 (val_main_v39 (F := Ideal) x0 x1 x2) (val_main_v32 (F := Ideal) x1) := by
  funext i
  rw [val_main_v41_apply, val_main_v40_apply]
  unfold scale16
  have e : idx_main_v40 i = ix2 (i 0) 0 := funext fun a => by
    match a with
    | ⟨0, _⟩ => rfl
    | ⟨1, _⟩ => rfl
  rw [e]
  exact mul_comm _ _

/-- The weight column of the second layer is the first layer's: the same spread of the same edge weights. -/
theorem weights_eq (x1 : S2x4000000.Idx → BitVec 32) : val_main_v50 (F := Ideal) x1 = val_main_v32 (F := Ideal) x1 := rfl

/-- The weight column spread along 7 columns, times the messages, is the messages scaled row by row. -/
theorem scale7_eq (x0 : S250000x3.Idx → EReal) (x1 : S2x4000000.Idx → BitVec 32) (x2 : S3x16.Idx → EReal)
    (x3 : S16.Idx → EReal) (x4 : S16x7.Idx → EReal) :
    val_main_v59 (F := Ideal) x0 x1 x2 x3 x4
      = scale7 (val_main_v57 (F := Ideal) x0 x1 x2 x3 x4) (val_main_v32 (F := Ideal) x1) := by
  funext i
  rw [val_main_v59_apply, val_main_v58_apply, weights_eq]
  unfold scale7
  have e : idx_main_v58 i = ix2 (i 0) 0 := funext fun a => by
    match a with
    | ⟨0, _⟩ => rfl
    | ⟨1, _⟩ => rfl
  rw [e]
  exact mul_comm _ _

/-! ## The epilogues -/

/-- The first epilogue: for any [1, 16] row `b2` that holds the bias `x3` entry for entry. -/
theorem biasRelu16_eq (x0 : S250000x3.Idx → EReal) (x1 : S2x4000000.Idx → BitVec 32) (x2 : S3x16.Idx → EReal)
    (x3 : S16.Idx → EReal) (b2 : S1x16.Idx → EReal) (hb : ∀ q : Fin 16, b2 (ix2 0 q) = x3 (ix1 q)) :
    val_main_v48 (F := Ideal) x0 x1 x2 x3 = biasRelu16 (val_main_v44 (F := Ideal) x0 x1 x2) b2 := by
  funext i
  obtain ⟨p, q, rfl⟩ : ∃ (p : Fin 250000) (q : Fin 16), i = ix2 p q := ⟨i 0, i 1, eq_ix2 i⟩
  rw [val_main_v48_apply, val_main_v47_apply, val_main_v46_apply, val_main_v45_apply, val_main_call1_v0_apply,
    val_main_call1_cst_apply]
  have e : idx_main_v45 (idx_main_v46 (ix2 p q)) = ix1 q := funext fun a => by
    match a with
    | ⟨0, _⟩ => rfl
  rw [e, ← hb q]
  rfl

/-- The second epilogue: for any [1, 7] row `b2` that holds the bias `x5` entry for entry. -/
theorem bias7_eq (x0 : S250000x3.Idx → EReal) (x1 : S2x4000000.Idx → BitVec 32) (x2 : S3x16.Idx → EReal)
    (x3 : S16.Idx → EReal) (x4 : S16x7.Idx → EReal) (x5 : S7.Idx → EReal) (b2 : S1x7.Idx → EReal)
    (hb : ∀ q : Fin 7, b2 (ix2 0 q) = x5 (ix1 q)) :
    val_main_v65 (F := Ideal) x0 x1 x2 x3 x4 x5 = bias7 (val_main_v62 (F := Ideal) x0 x1 x2 x3 x4) b2 := by
  funext i
  obtain ⟨p, q, rfl⟩ : ∃ (p : Fin 250000) (q : Fin 7), i = ix2 p q := ⟨i 0, i 1, eq_ix2 i⟩
  rw [val_main_v65_apply, val_main_v64_apply, val_main_v63_apply]
  have e : idx_main_v63 (idx_main_v64 (ix2 p q)) = ix1 q := funext fun a => by
    match a with
    | ⟨0, _⟩ => rfl
  rw [e, ← hb q]
  rfl

end Cert.ReferenceIdeal.Bridge

end
-- ==== Proof.PayloadDense.lean ====
/-
  The first dense body's stored value, read at one index of the block, at the exact instance: a product of the
  row block with the whole weight matrix into a zero accumulator, both factors first narrowed to a shorter float
  format (the identity on extended reals). Entry (p, q) is the sum over the one contracted axis — the row block's
  columns, the weight matrix's rows — of x[p, k] · w[k, q]: the product's left index at output (p, q) and
  contraction position k is (p, k), its right index (k, q).
-/
import proofs.«176165_j463856468564_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-! ## A [10000, 3] block against the [3, 16] weights -/

theorem lhs_dense1_0 (j : S10000x16.Idx) (k : dot_S10000x3_S3x16_S10000x16_1_0_0_1_n_n.contr.Idx) :
    (dot_S10000x3_S3x16_S10000x16_1_0_0_1_n_n.lhsIdx j k 0).val = (j 0).val := by
  unfold DotDims.lhsIdx
  rw [dif_neg (show ¬(0 : Fin S10000x3.rank) ∈ dot_S10000x3_S3x16_S10000x16_1_0_0_1_n_n.lhsBatch by decide),
    dif_pos (show (0 : Fin S10000x3.rank) ∈ dot_S10000x3_S3x16_S10000x16_1_0_0_1_n_n.lhsNonContracting by decide)]
  rfl

theorem lhs_dense1_1 (j : S10000x16.Idx) (k : dot_S10000x3_S3x16_S10000x16_1_0_0_1_n_n.contr.Idx) :
    (dot_S10000x3_S3x16_S10000x16_1_0_0_1_n_n.lhsIdx j k 1).val = (k ⟨0, by decide⟩).val :=
  DotDims.lhsIdx_val_of_single _ rfl j k

theorem rhs_dense1_0 (j : S10000x16.Idx) (k : dot_S10000x3_S3x16_S10000x16_1_0_0_1_n_n.contr.Idx) :
    (dot_S10000x3_S3x16_S10000x16_1_0_0_1_n_n.rhsIdx j k 0).val = (k ⟨0, by decide⟩).val :=
  DotDims.rhsIdx_val_of_single _ rfl j k

theorem rhs_dense1_1 (j : S10000x16.Idx) (k : dot_S10000x3_S3x16_S10000x16_1_0_0_1_n_n.contr.Idx) :
    (dot_S10000x3_S3x16_S10000x16_1_0_0_1_n_n.rhsIdx j k 1).val = (j 1).val := by
  unfold DotDims.rhsIdx
  rw [dif_neg (show ¬(1 : Fin S3x16.rank) ∈ dot_S10000x3_S3x16_S10000x16_1_0_0_1_n_n.rhsBatch by decide),
    dif_pos (show (1 : Fin S3x16.rank) ∈ dot_S10000x3_S3x16_S10000x16_1_0_0_1_n_n.rhsNonContracting by decide)]
  rfl

/-- The body's stored value at (p, q): the sum over the inner index k of x[p, k] · w[k, q]. (A cast of a
    vector to its own shape, where the body has one, is the identity.) -/
theorem dense1_apply (x0 : Vec Ideal S10000x3 .f32) (x1 : Vec Ideal S3x16 .f32) (p : Fin 10000) (q : Fin 16) :
    k0_pay1 x0 x1 (ix2 p q) = ∑ k : Fin 3, x0 (ix2 p k) * x1 (ix2 k q) := by
  unfold k0_pay1
  simp only [matmul, shapeCast_self]
  rw [Ideal.matmul_constant_zero_apply]
  rw [← Equiv.sum_comp (contrEquiv1 dot_S10000x3_S3x16_S10000x16_1_0_0_1_n_n 3 rfl rfl).symm]
  refine Finset.sum_congr rfl fun k _ => ?_
  have hk := contrEquiv1_symm_val dot_S10000x3_S3x16_S10000x16_1_0_0_1_n_n 3 rfl rfl k
  have e0 : dot_S10000x3_S3x16_S10000x16_1_0_0_1_n_n.lhsIdx (ix2 p q) ((contrEquiv1 dot_S10000x3_S3x16_S10000x16_1_0_0_1_n_n 3 rfl rfl).symm k) = ix2 p k := by
    funext a; apply Fin.ext
    match a with
    | ⟨0, _⟩ => exact lhs_dense1_0 _ _
    | ⟨1, _⟩ => exact (lhs_dense1_1 _ _).trans hk
  have e1 : dot_S10000x3_S3x16_S10000x16_1_0_0_1_n_n.rhsIdx (ix2 p q) ((contrEquiv1 dot_S10000x3_S3x16_S10000x16_1_0_0_1_n_n 3 rfl rfl).symm k) = ix2 k q := by
    funext a; apply Fin.ext
    match a with
    | ⟨0, _⟩ => exact (rhs_dense1_0 _ _).trans hk
    | ⟨1, _⟩ => exact rhs_dense1_1 _ _
  show x0 _ * x1 _ = _
  rw [e0, e1]

end Cert.KernelIdeal.Payload

end
-- ==== Proof.Region0.lean ====
/-
  The first dense region: 25 grid points, point t holding rows 10000·t … 10000·t + 9999 of the node features and
  the whole 3 × 16 weight matrix, and writing the same rows of the product. Every row of the 250000 × 16 output
  lies in exactly one point's block, so after the last point the output array is the dense map of the two input
  arrays as the region found them.
-/
import proofs.«176165_j463856468564_1_alg».proof.Proof.Gen.KernelIdeal.Frame
import proofs.«176165_j463856468564_1_alg».proof.Proof.PayloadDense
import proofs.«176165_j463856468564_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the feature window and the output window sit at block
    row t, block column 0; the weight window always at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense map of the arrays as the region finds them. -/
theorem flushed_eq (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x3) hz, View.ld_unit_zero (S := S3x16) hz]
  obtain ⟨e0, e1, e2, e3, e4, e5⟩ := idx_facts t
  funext j
  obtain ⟨p, q, rfl⟩ : ∃ (p : Fin 10000) (q : Fin 16), j = ix2 p q := ⟨j 0, j 1, eq_ix2 j⟩
  show k0_pay1 (iblk0 V c 0 t) (iblk0 V c 1 t) (ix2 p q)
      = Cert.Gcn.dense1 (V c main_arg0) (V c main_arg2) (((cfg0.win 2).blk t).view.emb (ix2 p q))
  rw [Payload.dense1_apply]
  have hN : cfg0.N = 25 := N_0
  have ht : t.val < 25 := hN ▸ t.isLt
  have hr : t.val * 10000 + p.val < 250000 := by omega
  -- the three blocks at point t, in coordinates of their arrays: row 10000·t + p of the features and of the output,
  -- the weight matrix whole
  have h0 : ∀ k : Fin 3, ((cfg0.win 0).blk t).view.emb (ix2 p k) = ix2 (n0 := 250000) (n1 := 3) ⟨t.val * 10000 + p.val, hr⟩ k := by
    intro k; funext a; apply Fin.ext
    match a with
    | ⟨0, _⟩ => show win0_0.index t (0 : Fin 2) * 10000 + 1 * p.val = t.val * 10000 + p.val; omega
    | ⟨1, _⟩ => show win0_0.index t (1 : Fin 2) * 3 + 1 * k.val = k.val; omega
  have h1 : ∀ k : Fin 3, ((cfg0.win 1).blk t).view.emb (ix2 k q) = ix2 (n0 := 3) (n1 := 16) k q := by
    intro k; funext a; apply Fin.ext
    match a with
    | ⟨0, _⟩ => show win0_1.index t (0 : Fin 2) * 3 + 1 * k.val = k.val; omega
    | ⟨1, _⟩ => show win0_1.index t (1 : Fin 2) * 16 + 1 * q.val = q.val; omega
  have h2 : ((cfg0.win 2).blk t).view.emb (ix2 p q) = ix2 (n0 := 250000) (n1 := 16) ⟨t.val * 10000 + p.val, hr⟩ q := by
    funext a; apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  -- the two input blocks read where the output's rectangle says, over arrays of the literal shapes
  have key : ∀ (x : S250000x3.Idx → EReal) (w : S3x16.Idx → EReal),
      (∑ k : Fin 3, x (((cfg0.win 0).blk t).view.emb (ix2 p k)) * w (((cfg0.win 1).blk t).view.emb (ix2 k q)))
        = Cert.Gcn.dense1 x w (((cfg0.win 2).blk t).view.emb (ix2 p q)) := by
    intro x w; rw [h2]; unfold Cert.Gcn.dense1
    refine Finset.sum_congr rfl fun k _ => ?_
    rw [h0 k, h1 k]
  exact key (V c main_arg0) (V c main_arg2)

/-- An index of the output array is in point t's block iff each coordinate is in the block's range on its axis. -/
theorem mem_blk (t : Fin cfg0.N) (i : S250000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v32).slice (win0_2.rect t)).set ↔ _
  rw [View.set_slice_whole, Rect.mem_set_unit]
  exact Iff.rfl

/-- Row r of the output lies in the block of point r / 10000. -/
theorem cover (i : S250000x16.Idx) :
    ∃ t : Fin cfg0.N, (cfg0.win 2).flush t = true ∧ i ∈ ((cfg0.win 2).blk t).view.set := by
  have hi0 : (i 0).val < 250000 := (i 0).isLt
  have hi1 : (i 1).val < 16 := (i 1).isLt
  have hN : cfg0.N = 25 := N_0
  have ht : (i 0).val / 10000 < cfg0.N := by rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 16 ≤ (i 1).val
      ∧ (i 1).val < win0_2.index ⟨(i 0).val / 10000, ht⟩ (1 : Fin 2) * 16 + 16
    rw [e5]; omega

/-- The output array after the last grid point, whatever the buffers hold when the region is entered. -/
theorem final (c : Dev nD) :
    (dat0 V c).arrAt 2 cfg0.N = Cert.Gcn.dense1 (V c main_arg0) (V c main_arg2) :=
  (dat0 V c).arrAt_eq_of_cover 2 _ (fun t _ => flushed_eq V c t) cover

end Cert.KernelIdeal.Region0

end
-- ==== Proof.Payload.lean ====
/-
  Each kernel body's stored value, read at one index of its block, at the exact instance. The two dense bodies
  are a product of the row block with the whole weight matrix into a zero accumulator: entry (p, q) is the sum
  over the inner index k of x[p, k] · w[k, q] (the narrowing of both factors to a shorter float format is the
  identity on extended reals). The two scaling bodies multiply a row of messages by that row's single weight,
  spread along the row. The two epilogues add the one bias row to every row (and, in the first, take the larger
  of that and the zero word).
-/
import proofs.«176165_j463856468564_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The scaling bodies -/

/-- A [10000, 1] column spread to [10000, 16] reads, at (p, q), the column's entry of row p. -/
theorem spread16 (x1 : Vec Ideal S10000x1 .f32) (p : Fin 10000) (q : Fin 16) :
    broadcastTo S10000x16 x1 broadcasts_S10000x1_S10000x16 (ix2 p q) = x1 (ix2 p 0) := by
  refine broadcastTo_apply x1 _ (ix2 p q) (ix2 p 0) fun ax => ?_
  match ax with
  | ⟨0, _⟩ => rfl
  | ⟨1, _⟩ => rfl

/-- A [10000, 1] column spread to [10000, 7] reads, at (p, q), the column's entry of row p. -/
theorem spread7 (x1 : Vec Ideal S10000x1 .f32) (p : Fin 10000) (q : Fin 7) :
    broadcastTo S10000x7 x1 broadcasts_S10000x1_S10000x7 (ix2 p q) = x1 (ix2 p 0) := by
  refine broadcastTo_apply x1 _ (ix2 p q) (ix2 p 0) fun ax => ?_
  match ax with
  | ⟨0, _⟩ => rfl
  | ⟨1, _⟩ => rfl

/-- The first scaling body at (p, q): the message entry times row p's weight. -/
theorem scale16_apply (x0 : Vec Ideal S10000x16 .f32) (x1 : Vec Ideal S10000x1 .f32) (p : Fin 10000) (q : Fin 16) :
    k1_pay1 x0 x1 (ix2 p q) = x0 (ix2 p q) * x1 (ix2 p 0) := by
  unfold k1_pay1
  simp only [shapeCast_self]
  show x0 (ix2 p q) * broadcastTo S10000x16 x1 broadcasts_S10000x1_S10000x16 (ix2 p q) = _
  rw [spread16]

/-- The second scaling body at (p, q): the message entry times row p's weight. -/
theorem scale7_apply (x0 : Vec Ideal S10000x7 .f32) (x1 : Vec Ideal S10000x1 .f32) (p : Fin 10000) (q : Fin 7) :
    k4_pay1 x0 x1 (ix2 p q) = x0 (ix2 p q) * x1 (ix2 p 0) := by
  unfold k4_pay1
  simp only [shapeCast_self]
  show x0 (ix2 p q) * broadcastTo S10000x7 x1 broadcasts_S10000x1_S10000x7 (ix2 p q) = _
  rw [spread7]

/-! ## The epilogues -/

/-- The first epilogue at (p, q): the row entry plus the bias entry of column q, against the zero word. -/
theorem biasRelu16_apply (x0 : Vec Ideal S10000x16 .f32) (x1 : Vec Ideal S1x16 .f32) (p : Fin 10000) (q : Fin 16) :
    k2_pay1 x0 x1 (ix2 p q) = max (x0 (ix2 p q) + x1 (ix2 0 q)) (Ideal.ofBits .f32 0x00000000#32) := by
  unfold k2_pay1
  simp only [shapeCast_self]
  show max (x0 (ix2 p q) + broadcastTo S10000x16 x1 broadcasts_S1x16_S10000x16 (ix2 p q)) (Ideal.ofBits .f32 0x00000000#32) = _
  rw [broadcastTo_1b_ab_apply]

/-- The second epilogue at (p, q): the row entry plus the bias entry of column q. -/
theorem bias7_apply (x0 : Vec Ideal S10000x7 .f32) (x1 : Vec Ideal S1x7 .f32) (p : Fin 10000) (q : Fin 7) :
    k5_pay1 x0 x1 (ix2 p q) = x0 (ix2 p q) + x1 (ix2 0 q) := by
  unfold k5_pay1
  simp only [shapeCast_self]
  show x0 (ix2 p q) + broadcastTo S10000x7 x1 broadcasts_S1x7_S10000x7 (ix2 p q) = _
  rw [broadcastTo_1b_ab_apply]

end Cert.KernelIdeal.Payload

end
-- ==== Proof.Region1.lean ====
/-
  The first scaling region: 425 grid points, point t holding rows 10000·t … 10000·t + 9999 of the gathered
  messages and of the weight column, and writing the same rows of the messages, each entry times its row's weight.
  The blocks tile the 4250000 × 16 output, so after the last point it is the scaled messages of the two input
  arrays as the region found them.
-/
import proofs.«176165_j463856468564_1_alg».proof.Proof.Gen.KernelIdeal.Frame
import proofs.«176165_j463856468564_1_alg».proof.Proof.Payload
import proofs.«176165_j463856468564_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t all three windows sit at block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled messages of the arrays as the region finds them. -/
theorem flushed_eq (c : Dev nD) (t : Fin cfg1.N) :
    (dat1 V c).flushed 2 t = ((cfg1.win 2).blk t).view.read (Elt Ideal) (Cert.Gcn.scale16 (V c main_v39) (V c main_v31)) := by
  show (cfg1.win 2).cut (grid1.coords t) ((dat1 V c).after 2 t) = _
  rw [after1_2]
  unfold out1_2
  rw [View.canon_unit_zero hz]
  simp only [View.ld_unit_zero (S := S10000x16) hz, View.ld_unit_zero (S := S10000x1) hz]
  obtain ⟨e0, e1, e2, e3, e4, e5⟩ := idx_facts t
  funext j
  obtain ⟨p, q, rfl⟩ : ∃ (p : Fin 10000) (q : Fin 16), j = ix2 p q := ⟨j 0, j 1, eq_ix2 j⟩
  show k1_pay1 (iblk1 V c 0 t) (iblk1 V c 1 t) (ix2 p q)
      = Cert.Gcn.scale16 (V c main_v39) (V c main_v31) (((cfg1.win 2).blk t).view.emb (ix2 p q))
  rw [Payload.scale16_apply]
  have hN : cfg1.N = 425 := N_1
  have ht : t.val < 425 := hN ▸ t.isLt
  have hr : t.val * 10000 + p.val < 4250000 := by omega
  -- the three blocks at point t, in coordinates of their arrays: row 10000·t + p
  have h0 : ((cfg1.win 0).blk t).view.emb (ix2 p q) = ix2 (n0 := 4250000) (n1 := 16) ⟨t.val * 10000 + p.val, hr⟩ q := by
    funext a; apply Fin.ext
    match a with
    | ⟨0, _⟩ => show win1_0.index t (0 : Fin 2) * 10000 + 1 * p.val = t.val * 10000 + p.val; omega
    | ⟨1, _⟩ => show win1_0.index t (1 : Fin 2) * 16 + 1 * q.val = q.val; omega
  have h1 : ((cfg1.win 1).blk t).view.emb (ix2 p 0) = ix2 (n0 := 4250000) (n1 := 1) ⟨t.val * 10000 + p.val, hr⟩ 0 := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have h2 : ((cfg1.win 2).blk t).view.emb (ix2 p q) = ix2 (n0 := 4250000) (n1 := 16) ⟨t.val * 10000 + p.val, hr⟩ q := by
    funext a; apply Fin.ext
    match a with
    | ⟨0, _⟩ => show win1_2.index t (0 : Fin 2) * 10000 + 1 * p.val = t.val * 10000 + p.val; omega
    | ⟨1, _⟩ => show win1_2.index t (1 : Fin 2) * 16 + 1 * q.val = q.val; omega
  -- the two input blocks read where the output's rectangle says, over arrays of the literal shapes
  have key : ∀ (g : S4250000x16.Idx → EReal) (n : S4250000x1.Idx → EReal),
      g (((cfg1.win 0).blk t).view.emb (ix2 p q)) * n (((cfg1.win 1).blk t).view.emb (ix2 p 0))
        = Cert.Gcn.scale16 g n (((cfg1.win 2).blk t).view.emb (ix2 p q)) := by
    intro g n; rw [h0, h1, h2]; rfl
  exact key (V c main_v39) (V c main_v31)

/-- An index of the output array is in point t's block iff each coordinate is in the block's range on its axis. -/
theorem mem_blk (t : Fin cfg1.N) (i : S4250000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v40).slice (win1_2.rect t)).set ↔ _
  rw [View.set_slice_whole, Rect.mem_set_unit]
  exact Iff.rfl

/-- Row r of the output lies in the block of point r / 10000. -/
theorem cover (i : S4250000x16.Idx) :
    ∃ t : Fin cfg1.N, (cfg1.win 2).flush t = true ∧ i ∈ ((cfg1.win 2).blk t).view.set := by
  have hi0 : (i 0).val < 4250000 := (i 0).isLt
  have hi1 : (i 1).val < 16 := (i 1).isLt
  have hN : cfg1.N = 425 := N_1
  have ht : (i 0).val / 10000 < cfg1.N := by rw [hN]; omega
  refine ⟨⟨(i 0).val / 10000, ht⟩, flush1_2 _, ?_⟩
  rw [mem_blk]
  obtain ⟨-, -, -, -, e4, e5⟩ := idx_facts ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    rw [e5]; omega

/-- The output array after the last grid point, whatever the buffers hold when the region is entered. -/
theorem final (c : Dev nD) :
    (dat1 V c).arrAt 2 cfg1.N = Cert.Gcn.scale16 (V c main_v39) (V c main_v31) :=
  (dat1 V c).arrAt_eq_of_cover 2 _ (fun t _ => flushed_eq V c t) cover

end Cert.KernelIdeal.Region1

end
-- ==== Proof.Region2.lean ====
/-
  The first epilogue region: 25 grid points, point t holding rows 10000·t … 10000·t + 9999 of the summed messages
  and the one bias row, and writing the same rows with the bias added and clamped below at the zero word. The
  blocks tile the 250000 × 16 output, so after the last point it is the epilogue of the two input arrays as the
  region found them.
-/
import proofs.«176165_j463856468564_1_alg».proof.Proof.Gen.KernelIdeal.Frame
import proofs.«176165_j463856468564_1_alg».proof.Proof.Payload
import proofs.«176165_j463856468564_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the row window and the output window sit at block
    row t, block column 0; the bias window always at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the epilogue of the arrays as the region finds them. -/
theorem flushed_eq (c : Dev nD) (t : Fin cfg2.N) :
    (dat2 V c).flushed 2 t = ((cfg2.win 2).blk t).view.read (Elt Ideal) (Cert.Gcn.biasRelu16 (V c main_v43) (V c main_v44)) := by
  show (cfg2.win 2).cut (grid2.coords t) ((dat2 V c).after 2 t) = _
  rw [after2_2]
  unfold out2_2
  rw [View.canon_unit_zero hz]
  simp only [View.ld_unit_zero (S := S10000x16) hz, View.ld_unit_zero (S := S1x16) hz]
  obtain ⟨e0, e1, e2, e3, e4, e5⟩ := idx_facts t
  funext j
  obtain ⟨p, q, rfl⟩ : ∃ (p : Fin 10000) (q : Fin 16), j = ix2 p q := ⟨j 0, j 1, eq_ix2 j⟩
  show k2_pay1 (iblk2 V c 0 t) (iblk2 V c 1 t) (ix2 p q)
      = Cert.Gcn.biasRelu16 (V c main_v43) (V c main_v44) (((cfg2.win 2).blk t).view.emb (ix2 p q))
  rw [Payload.biasRelu16_apply]
  have hN : cfg2.N = 25 := N_2
  have ht : t.val < 25 := hN ▸ t.isLt
  have hr : t.val * 10000 + p.val < 250000 := by omega
  -- the three blocks at point t, in coordinates of their arrays: row 10000·t + p of the input and of the output,
  -- the bias row whole
  have h0 : ((cfg2.win 0).blk t).view.emb (ix2 p q) = ix2 (n0 := 250000) (n1 := 16) ⟨t.val * 10000 + p.val, hr⟩ q := by
    funext a; apply Fin.ext
    match a with
    | ⟨0, _⟩ => show win2_0.index t (0 : Fin 2) * 10000 + 1 * p.val = t.val * 10000 + p.val; omega
    | ⟨1, _⟩ => show win2_0.index t (1 : Fin 2) * 16 + 1 * q.val = q.val; omega
  have h1 : ((cfg2.win 1).blk t).view.emb (ix2 0 q) = ix2 (n0 := 1) (n1 := 16) 0 q := by
    funext a; apply Fin.ext
    match a with
    | ⟨0, _⟩ => show win2_1.index t (0 : Fin 2) * 1 + 1 * 0 = 0; omega
    | ⟨1, _⟩ => show win2_1.index t (1 : Fin 2) * 16 + 1 * q.val = q.val; omega
  have h2 : ((cfg2.win 2).blk t).view.emb (ix2 p q) = ix2 (n0 := 250000) (n1 := 16) ⟨t.val * 10000 + p.val, hr⟩ q := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  -- the two input blocks read where the output's rectangle says, over arrays of the literal shapes
  have key : ∀ (a : S250000x16.Idx → EReal) (b : S1x16.Idx → EReal),
      max (a (((cfg2.win 0).blk t).view.emb (ix2 p q)) + b (((cfg2.win 1).blk t).view.emb (ix2 0 q)))
          (Ideal.ofBits .f32 0x00000000#32)
        = Cert.Gcn.biasRelu16 a b (((cfg2.win 2).blk t).view.emb (ix2 p q)) := by
    intro a b; rw [h0, h1, h2]; rfl
  exact key (V c main_v43) (V c main_v44)

/-- An index of the output array is in point t's block iff each coordinate is in the block's range on its axis. -/
theorem mem_blk (t : Fin cfg2.N) (i : S250000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v45).slice (win2_2.rect t)).set ↔ _
  rw [View.set_slice_whole, Rect.mem_set_unit]
  exact Iff.rfl

/-- Row r of the output lies in the block of point r / 10000. -/
theorem cover (i : S250000x16.Idx) :
    ∃ t : Fin cfg2.N, (cfg2.win 2).flush t = true ∧ i ∈ ((cfg2.win 2).blk t).view.set := by
  have hi0 : (i 0).val < 250000 := (i 0).isLt
  have hi1 : (i 1).val < 16 := (i 1).isLt
  have hN : cfg2.N = 25 := N_2
  have ht : (i 0).val / 10000 < cfg2.N := by rw [hN]; omega
  refine ⟨⟨(i 0).val / 10000, ht⟩, flush2_2 _, ?_⟩
  rw [mem_blk]
  obtain ⟨-, -, -, -, e4, e5⟩ := idx_facts ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 16 ≤ (i 1).val
      ∧ (i 1).val < win2_2.index ⟨(i 0).val / 10000, ht⟩ (1 : Fin 2) * 16 + 16
    rw [e5]; omega

/-- The output array after the last grid point, whatever the buffers hold when the region is entered. -/
theorem final (c : Dev nD) :
    (dat2 V c).arrAt 2 cfg2.N = Cert.Gcn.biasRelu16 (V c main_v43) (V c main_v44) :=
  (dat2 V c).arrAt_eq_of_cover 2 _ (fun t _ => flushed_eq V c t) cover

end Cert.KernelIdeal.Region2

end
-- ==== Proof.PayloadDense2.lean ====
/-
  The second dense body's stored value, read at one index of the block, at the exact instance: a product of the
  row block with the whole weight matrix into a zero accumulator, both factors first narrowed to a shorter float
  format (the identity on extended reals). Entry (p, q) is the sum over the one contracted axis — the row block's
  columns, the weight matrix's rows — of x[p, k] · w[k, q]: the product's left index at output (p, q) and
  contraction position k is (p, k), its right index (k, q).
-/
import proofs.«176165_j463856468564_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-! ## A [10000, 16] block against the [16, 7] weights -/

theorem lhs_dense2_0 (j : S10000x7.Idx) (k : dot_S10000x16_S16x7_S10000x7_1_0_0_1_n_n.contr.Idx) :
    (dot_S10000x16_S16x7_S10000x7_1_0_0_1_n_n.lhsIdx j k 0).val = (j 0).val := by
  unfold DotDims.lhsIdx
  rw [dif_neg (show ¬(0 : Fin S10000x16.rank) ∈ dot_S10000x16_S16x7_S10000x7_1_0_0_1_n_n.lhsBatch by decide),
    dif_pos (show (0 : Fin S10000x16.rank) ∈ dot_S10000x16_S16x7_S10000x7_1_0_0_1_n_n.lhsNonContracting by decide)]
  rfl

theorem lhs_dense2_1 (j : S10000x7.Idx) (k : dot_S10000x16_S16x7_S10000x7_1_0_0_1_n_n.contr.Idx) :
    (dot_S10000x16_S16x7_S10000x7_1_0_0_1_n_n.lhsIdx j k 1).val = (k ⟨0, by decide⟩).val :=
  DotDims.lhsIdx_val_of_single _ rfl j k

theorem rhs_dense2_0 (j : S10000x7.Idx) (k : dot_S10000x16_S16x7_S10000x7_1_0_0_1_n_n.contr.Idx) :
    (dot_S10000x16_S16x7_S10000x7_1_0_0_1_n_n.rhsIdx j k 0).val = (k ⟨0, by decide⟩).val :=
  DotDims.rhsIdx_val_of_single _ rfl j k

theorem rhs_dense2_1 (j : S10000x7.Idx) (k : dot_S10000x16_S16x7_S10000x7_1_0_0_1_n_n.contr.Idx) :
    (dot_S10000x16_S16x7_S10000x7_1_0_0_1_n_n.rhsIdx j k 1).val = (j 1).val := by
  unfold DotDims.rhsIdx
  rw [dif_neg (show ¬(1 : Fin S16x7.rank) ∈ dot_S10000x16_S16x7_S10000x7_1_0_0_1_n_n.rhsBatch by decide),
    dif_pos (show (1 : Fin S16x7.rank) ∈ dot_S10000x16_S16x7_S10000x7_1_0_0_1_n_n.rhsNonContracting by decide)]
  rfl

/-- The body's stored value at (p, q): the sum over the inner index k of x[p, k] · w[k, q]. (A cast of a
    vector to its own shape, where the body has one, is the identity.) -/
theorem dense2_apply (x0 : Vec Ideal S10000x16 .f32) (x1 : Vec Ideal S16x7 .f32) (p : Fin 10000) (q : Fin 7) :
    k3_pay1 x0 x1 (ix2 p q) = ∑ k : Fin 16, x0 (ix2 p k) * x1 (ix2 k q) := by
  unfold k3_pay1
  simp only [matmul, shapeCast_self]
  rw [Ideal.matmul_constant_zero_apply]
  rw [← Equiv.sum_comp (contrEquiv1 dot_S10000x16_S16x7_S10000x7_1_0_0_1_n_n 16 rfl rfl).symm]
  refine Finset.sum_congr rfl fun k _ => ?_
  have hk := contrEquiv1_symm_val dot_S10000x16_S16x7_S10000x7_1_0_0_1_n_n 16 rfl rfl k
  have e0 : dot_S10000x16_S16x7_S10000x7_1_0_0_1_n_n.lhsIdx (ix2 p q) ((contrEquiv1 dot_S10000x16_S16x7_S10000x7_1_0_0_1_n_n 16 rfl rfl).symm k) = ix2 p k := by
    funext a; apply Fin.ext
    match a with
    | ⟨0, _⟩ => exact lhs_dense2_0 _ _
    | ⟨1, _⟩ => exact (lhs_dense2_1 _ _).trans hk
  have e1 : dot_S10000x16_S16x7_S10000x7_1_0_0_1_n_n.rhsIdx (ix2 p q) ((contrEquiv1 dot_S10000x16_S16x7_S10000x7_1_0_0_1_n_n 16 rfl rfl).symm k) = ix2 k q := by
    funext a; apply Fin.ext
    match a with
    | ⟨0, _⟩ => exact (rhs_dense2_0 _ _).trans hk
    | ⟨1, _⟩ => exact rhs_dense2_1 _ _
  show x0 _ * x1 _ = _
  rw [e0, e1]

end Cert.KernelIdeal.Payload

end
-- ==== Proof.Region3.lean ====
/-
  The second dense region: 25 grid points, point t holding rows 10000·t … 10000·t + 9999 of the hidden features and
  the whole 16 × 7 weight matrix, and writing the same rows of the product. Every row of the 250000 × 7 output
  lies in exactly one point's block, so after the last point the output array is the dense map of the two input
  arrays as the region found them.
-/
import proofs.«176165_j463856468564_1_alg».proof.Proof.Gen.KernelIdeal.Frame
import proofs.«176165_j463856468564_1_alg».proof.Proof.PayloadDense2
import proofs.«176165_j463856468564_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the feature window and the output window sit at block
    row t, block column 0; the weight window always at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the dense map of the arrays as the region finds them. -/
theorem flushed_eq (c : Dev nD) (t : Fin cfg3.N) :
    (dat3 V c).flushed 2 t = ((cfg3.win 2).blk t).view.read (Elt Ideal) (Cert.Gcn.dense2 (V c main_v45) (V c main_arg4)) := by
  show (cfg3.win 2).cut (grid3.coords t) ((dat3 V c).after 2 t) = _
  rw [after3_2]
  unfold out3_2
  rw [View.canon_unit_zero hz]
  simp only [View.ld_unit_zero (S := S10000x16) hz, View.ld_unit_zero (S := S16x7) hz]
  obtain ⟨e0, e1, e2, e3, e4, e5⟩ := idx_facts t
  funext j
  obtain ⟨p, q, rfl⟩ : ∃ (p : Fin 10000) (q : Fin 7), j = ix2 p q := ⟨j 0, j 1, eq_ix2 j⟩
  show k3_pay1 (iblk3 V c 0 t) (iblk3 V c 1 t) (ix2 p q)
      = Cert.Gcn.dense2 (V c main_v45) (V c main_arg4) (((cfg3.win 2).blk t).view.emb (ix2 p q))
  rw [Payload.dense2_apply]
  have hN : cfg3.N = 25 := N_3
  have ht : t.val < 25 := hN ▸ t.isLt
  have hr : t.val * 10000 + p.val < 250000 := by omega
  -- the three blocks at point t, in coordinates of their arrays: row 10000·t + p of the features and of the output,
  -- the weight matrix whole
  have h0 : ∀ k : Fin 16, ((cfg3.win 0).blk t).view.emb (ix2 p k) = ix2 (n0 := 250000) (n1 := 16) ⟨t.val * 10000 + p.val, hr⟩ k := by
    intro k; funext a; apply Fin.ext
    match a with
    | ⟨0, _⟩ => show win3_0.index t (0 : Fin 2) * 10000 + 1 * p.val = t.val * 10000 + p.val; omega
    | ⟨1, _⟩ => show win3_0.index t (1 : Fin 2) * 16 + 1 * k.val = k.val; omega
  have h1 : ∀ k : Fin 16, ((cfg3.win 1).blk t).view.emb (ix2 k q) = ix2 (n0 := 16) (n1 := 7) k q := by
    intro k; funext a; apply Fin.ext
    match a with
    | ⟨0, _⟩ => show win3_1.index t (0 : Fin 2) * 16 + 1 * k.val = k.val; omega
    | ⟨1, _⟩ => show win3_1.index t (1 : Fin 2) * 7 + 1 * q.val = q.val; omega
  have h2 : ((cfg3.win 2).blk t).view.emb (ix2 p q) = ix2 (n0 := 250000) (n1 := 7) ⟨t.val * 10000 + p.val, hr⟩ q := by
    funext a; apply Fin.ext
    match a with
    | ⟨0, _⟩ => show win3_2.index t (0 : Fin 2) * 10000 + 1 * p.val = t.val * 10000 + p.val; omega
    | ⟨1, _⟩ => show win3_2.index t (1 : Fin 2) * 7 + 1 * q.val = q.val; omega
  -- the two input blocks read where the output's rectangle says, over arrays of the literal shapes
  have key : ∀ (x : S250000x16.Idx → EReal) (w : S16x7.Idx → EReal),
      (∑ k : Fin 16, x (((cfg3.win 0).blk t).view.emb (ix2 p k)) * w (((cfg3.win 1).blk t).view.emb (ix2 k q)))
        = Cert.Gcn.dense2 x w (((cfg3.win 2).blk t).view.emb (ix2 p q)) := by
    intro x w; rw [h2]; unfold Cert.Gcn.dense2
    refine Finset.sum_congr rfl fun k _ => ?_
    rw [h0 k, h1 k]
  exact key (V c main_v45) (V c main_arg4)

/-- An index of the output array is in point t's block iff each coordinate is in the block's range on its axis. -/
theorem mem_blk (t : Fin cfg3.N) (i : S250000x7.Idx) :
    i ∈ ((cfg3.win 2).blk t).view.set ↔ ∀ a : Fin 2, win3_2.index t a * S10000x7.size a ≤ (i a).val
      ∧ (i a).val < win3_2.index t a * S10000x7.size a + S10000x7.size a := by
  show i ∈ ((View.whole main_v46).slice (win3_2.rect t)).set ↔ _
  rw [View.set_slice_whole, Rect.mem_set_unit]
  exact Iff.rfl

/-- Row r of the output lies in the block of point r / 10000. -/
theorem cover (i : S250000x7.Idx) :
    ∃ t : Fin cfg3.N, (cfg3.win 2).flush t = true ∧ i ∈ ((cfg3.win 2).blk t).view.set := by
  have hi0 : (i 0).val < 250000 := (i 0).isLt
  have hi1 : (i 1).val < 7 := (i 1).isLt
  have hN : cfg3.N = 25 := N_3
  have ht : (i 0).val / 10000 < cfg3.N := by rw [hN]; omega
  refine ⟨⟨(i 0).val / 10000, ht⟩, flush3_2 _, ?_⟩
  rw [mem_blk]
  obtain ⟨-, -, -, -, e4, e5⟩ := idx_facts ⟨(i 0).val / 10000, ht⟩
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 7 ≤ (i 1).val
      ∧ (i 1).val < win3_2.index ⟨(i 0).val / 10000, ht⟩ (1 : Fin 2) * 7 + 7
    rw [e5]; omega

/-- The output array after the last grid point, whatever the buffers hold when the region is entered. -/
theorem final (c : Dev nD) :
    (dat3 V c).arrAt 2 cfg3.N = Cert.Gcn.dense2 (V c main_v45) (V c main_arg4) :=
  (dat3 V c).arrAt_eq_of_cover 2 _ (fun t _ => flushed_eq V c t) cover

end Cert.KernelIdeal.Region3

end
-- ==== Proof.Region4.lean ====
/-
  The second scaling region: 425 grid points, point t holding rows 10000·t … 10000·t + 9999 of the gathered
  messages and of the weight column, and writing the same rows of the messages, each entry times its row's weight.
  The blocks tile the 4250000 × 7 output, so after the last point it is the scaled messages of the two input
  arrays as the region found them.
-/
import proofs.«176165_j463856468564_1_alg».proof.Proof.Gen.KernelIdeal.Frame
import proofs.«176165_j463856468564_1_alg».proof.Proof.Payload
import proofs.«176165_j463856468564_1_alg».proof.Proof.Spec
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t all three windows sit at block row t, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled messages of the arrays as the region finds them. -/
theorem flushed_eq (c : Dev nD) (t : Fin cfg4.N) :
    (dat4 V c).flushed 2 t = ((cfg4.win 2).blk t).view.read (Elt Ideal) (Cert.Gcn.scale7 (V c main_v53) (V c main_v31)) := by
  show (cfg4.win 2).cut (grid4.coords t) ((dat4 V c).after 2 t) = _
  rw [after4_2]
  unfold out4_2
  rw [View.canon_unit_zero hz]
  simp only [View.ld_unit_zero (S := S10000x7) hz, View.ld_unit_zero (S := S10000x1) hz]
  obtain ⟨e0, e1, e2, e3, e4, e5⟩ := idx_facts t
  funext j
  obtain ⟨p, q, rfl⟩ : ∃ (p : Fin 10000) (q : Fin 7), j = ix2 p q := ⟨j 0, j 1, eq_ix2 j⟩
  show k4_pay1 (iblk4 V c 0 t) (iblk4 V c 1 t) (ix2 p q)
      = Cert.Gcn.scale7 (V c main_v53) (V c main_v31) (((cfg4.win 2).blk t).view.emb (ix2 p q))
  rw [Payload.scale7_apply]
  have hN : cfg4.N = 425 := N_4
  have ht : t.val < 425 := hN ▸ t.isLt
  have hr : t.val * 10000 + p.val < 4250000 := by omega
  -- the three blocks at point t, in coordinates of their arrays: row 10000·t + p
  have h0 : ((cfg4.win 0).blk t).view.emb (ix2 p q) = ix2 (n0 := 4250000) (n1 := 7) ⟨t.val * 10000 + p.val, hr⟩ q := by
    funext a; apply Fin.ext
    match a with
    | ⟨0, _⟩ => show win4_0.index t (0 : Fin 2) * 10000 + 1 * p.val = t.val * 10000 + p.val; omega
    | ⟨1, _⟩ => show win4_0.index t (1 : Fin 2) * 7 + 1 * q.val = q.val; omega
  have h1 : ((cfg4.win 1).blk t).view.emb (ix2 p 0) = ix2 (n0 := 4250000) (n1 := 1) ⟨t.val * 10000 + p.val, hr⟩ 0 := by
    funext a; apply Fin.ext
    match a with
    | ⟨0, _⟩ => show win4_1.index t (0 : Fin 2) * 10000 + 1 * p.val = t.val * 10000 + p.val; omega
    | ⟨1, _⟩ => show win4_1.index t (1 : Fin 2) * 1 + 1 * 0 = 0; omega
  have h2 : ((cfg4.win 2).blk t).view.emb (ix2 p q) = ix2 (n0 := 4250000) (n1 := 7) ⟨t.val * 10000 + p.val, hr⟩ q := by
    funext a; apply Fin.ext
    match a with
    | ⟨0, _⟩ => show win4_2.index t (0 : Fin 2) * 10000 + 1 * p.val = t.val * 10000 + p.val; omega
    | ⟨1, _⟩ => show win4_2.index t (1 : Fin 2) * 7 + 1 * q.val = q.val; omega
  -- the two input blocks read where the output's rectangle says, over arrays of the literal shapes
  have key : ∀ (g : S4250000x7.Idx → EReal) (n : S4250000x1.Idx → EReal),
      g (((cfg4.win 0).blk t).view.emb (ix2 p q)) * n (((cfg4.win 1).blk t).view.emb (ix2 p 0))
        = Cert.Gcn.scale7 g n (((cfg4.win 2).blk t).view.emb (ix2 p q)) := by
    intro g n; rw [h0, h1, h2]; rfl
  exact key (V c main_v53) (V c main_v31)

/-- An index of the output array is in point t's block iff each coordinate is in the block's range on its axis. -/
theorem mem_blk (t : Fin cfg4.N) (i : S4250000x7.Idx) :
    i ∈ ((cfg4.win 2).blk t).view.set ↔ ∀ a : Fin 2, win4_2.index t a * S10000x7.size a ≤ (i a).val
      ∧ (i a).val < win4_2.index t a * S10000x7.size a + S10000x7.size a := by
  show i ∈ ((View.whole main_v54).slice (win4_2.rect t)).set ↔ _
  rw [View.set_slice_whole, Rect.mem_set_unit]
  exact Iff.rfl

/-- Row r of the output lies in the block of point r / 10000. -/
theorem cover (i : S4250000x7.Idx) :
    ∃ t : Fin cfg4.N, (cfg4.win 2).flush t = true ∧ i ∈ ((cfg4.win 2).blk t).view.set := by
  have hi0 : (i 0).val < 4250000 := (i 0).isLt
  have hi1 : (i 1).val < 7 := (i 1).isLt
  have hN : cfg4.N = 425 := N_4
  have ht : (i 0).val / 10000 < cfg4.N := by rw [hN]; omega
  refine ⟨⟨(i 0).val / 10000, ht⟩, flush4_2 _, ?_⟩
  rw [mem_blk]
  obtain ⟨-, -, -, -, e4, e5⟩ := idx_facts ⟨(i 0).val / 10000, ht⟩
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 7 ≤ (i 1).val
      ∧ (i 1).val < win4_2.index ⟨(i 0).val / 10000, ht⟩ (1 : Fin 2) * 7 + 7
    rw [e5]; omega

/-- The output array after the last grid point, whatever the buffers hold when the region is entered. -/
theorem final (c : Dev nD) :
    (dat4 V c).arrAt 2 cfg4.N = Cert.Gcn.scale7 (V c main_v53) (V c main_v31) :=
  (dat4 V c).arrAt_eq_of_cover 2 _ (fun t _ => flushed_eq V c t) cover

end Cert.KernelIdeal.Region4

end
-- ==== Proof.Region5.lean ====
/-
  The second epilogue region: 25 grid points, point t holding rows 10000·t … 10000·t + 9999 of the summed
  messages and the one bias row, and writing the same rows with the bias added. The blocks tile the 250000 × 7
  output, so after the last point it is the epilogue of the two input arrays as the region found them.
-/
import proofs.«176165_j463856468564_1_alg».proof.Proof.Gen.KernelIdeal.Frame
import proofs.«176165_j463856468564_1_alg».proof.Proof.Payload
import proofs.«176165_j463856468564_1_alg».proof.Proof.Spec
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the row window and the output window sit at block
    row t, block column 0; the bias window always at its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the epilogue of the arrays as the region finds them. -/
theorem flushed_eq (c : Dev nD) (t : Fin cfg5.N) :
    (dat5 V c).flushed 2 t = ((cfg5.win 2).blk t).view.read (Elt Ideal) (Cert.Gcn.bias7 (V c main_v57) (V c main_v58)) := by
  show (cfg5.win 2).cut (grid5.coords t) ((dat5 V c).after 2 t) = _
  rw [after5_2]
  unfold out5_2
  rw [View.canon_unit_zero hz]
  simp only [View.ld_unit_zero (S := S10000x7) hz, View.ld_unit_zero (S := S1x7) hz]
  obtain ⟨e0, e1, e2, e3, e4, e5⟩ := idx_facts t
  funext j
  obtain ⟨p, q, rfl⟩ : ∃ (p : Fin 10000) (q : Fin 7), j = ix2 p q := ⟨j 0, j 1, eq_ix2 j⟩
  show k5_pay1 (iblk5 V c 0 t) (iblk5 V c 1 t) (ix2 p q)
      = Cert.Gcn.bias7 (V c main_v57) (V c main_v58) (((cfg5.win 2).blk t).view.emb (ix2 p q))
  rw [Payload.bias7_apply]
  have hN : cfg5.N = 25 := N_5
  have ht : t.val < 25 := hN ▸ t.isLt
  have hr : t.val * 10000 + p.val < 250000 := by omega
  -- the three blocks at point t, in coordinates of their arrays: row 10000·t + p of the input and of the output,
  -- the bias row whole
  have h0 : ((cfg5.win 0).blk t).view.emb (ix2 p q) = ix2 (n0 := 250000) (n1 := 7) ⟨t.val * 10000 + p.val, hr⟩ q := by
    funext a; apply Fin.ext
    match a with
    | ⟨0, _⟩ => show win5_0.index t (0 : Fin 2) * 10000 + 1 * p.val = t.val * 10000 + p.val; omega
    | ⟨1, _⟩ => show win5_0.index t (1 : Fin 2) * 7 + 1 * q.val = q.val; omega
  have h1 : ((cfg5.win 1).blk t).view.emb (ix2 0 q) = ix2 (n0 := 1) (n1 := 7) 0 q := by
    funext a; apply Fin.ext
    match a with
    | ⟨0, _⟩ => show win5_1.index t (0 : Fin 2) * 1 + 1 * 0 = 0; omega
    | ⟨1, _⟩ => show win5_1.index t (1 : Fin 2) * 7 + 1 * q.val = q.val; omega
  have h2 : ((cfg5.win 2).blk t).view.emb (ix2 p q) = ix2 (n0 := 250000) (n1 := 7) ⟨t.val * 10000 + p.val, hr⟩ q := by
    funext a; apply Fin.ext
    match a with
    | ⟨0, _⟩ => show win5_2.index t (0 : Fin 2) * 10000 + 1 * p.val = t.val * 10000 + p.val; omega
    | ⟨1, _⟩ => show win5_2.index t (1 : Fin 2) * 7 + 1 * q.val = q.val; omega
  -- the two input blocks read where the output's rectangle says, over arrays of the literal shapes
  have key : ∀ (a : S250000x7.Idx → EReal) (b : S1x7.Idx → EReal),
      a (((cfg5.win 0).blk t).view.emb (ix2 p q)) + b (((cfg5.win 1).blk t).view.emb (ix2 0 q))
        = Cert.Gcn.bias7 a b (((cfg5.win 2).blk t).view.emb (ix2 p q)) := by
    intro a b; rw [h0, h1, h2]; rfl
  exact key (V c main_v57) (V c main_v58)

/-- An index of the output array is in point t's block iff each coordinate is in the block's range on its axis. -/
theorem mem_blk (t : Fin cfg5.N) (i : S250000x7.Idx) :
    i ∈ ((cfg5.win 2).blk t).view.set ↔ ∀ a : Fin 2, win5_2.index t a * S10000x7.size a ≤ (i a).val
      ∧ (i a).val < win5_2.index t a * S10000x7.size a + S10000x7.size a := by
  show i ∈ ((View.whole main_v59).slice (win5_2.rect t)).set ↔ _
  rw [View.set_slice_whole, Rect.mem_set_unit]
  exact Iff.rfl

/-- Row r of the output lies in the block of point r / 10000. -/
theorem cover (i : S250000x7.Idx) :
    ∃ t : Fin cfg5.N, (cfg5.win 2).flush t = true ∧ i ∈ ((cfg5.win 2).blk t).view.set := by
  have hi0 : (i 0).val < 250000 := (i 0).isLt
  have hi1 : (i 1).val < 7 := (i 1).isLt
  have hN : cfg5.N = 25 := N_5
  have ht : (i 0).val / 10000 < cfg5.N := by rw [hN]; omega
  refine ⟨⟨(i 0).val / 10000, ht⟩, flush5_2 _, ?_⟩
  rw [mem_blk]
  obtain ⟨-, -, -, -, e4, e5⟩ := idx_facts ⟨(i 0).val / 10000, ht⟩
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 7 ≤ (i 1).val
      ∧ (i 1).val < win5_2.index ⟨(i 0).val / 10000, ht⟩ (1 : Fin 2) * 7 + 7
    rw [e5]; omega

/-- The output array after the last grid point, whatever the buffers hold when the region is entered. -/
theorem final (c : Dev nD) :
    (dat5 V c).arrAt 2 cfg5.N = Cert.Gcn.bias7 (V c main_v57) (V c main_v58) :=
  (dat5 V c).arrAt_eq_of_cover 2 _ (fun t _ => flushed_eq V c t) cover

end Cert.KernelIdeal.Region5

end
-- ==== Proof.Chain.lean ====
/-
  The kernel's program read from the launch memory to its result, at the exact instance, stage by stage against
  the reference's stages. The edge sources, targets and weights are computed before the first region and written by
  nothing afterwards, and no argument is ever written: each keeps its contents across every region (which writes
  only its own output array) and every host stretch (which writes only its own results). Each region's output
  array is its layer function of the arrays it was entered with; each host stretch between regions is the
  reference's own gather or sum. Walking the six regions in order, the result buffer ends at the reference's
  last stage of the six arguments.
-/
import proofs.«176165_j463856468564_1_alg».proof.Proof.Gen.KernelIdeal.Frame
import proofs.«176165_j463856468564_1_alg».proof.Proof.HostStages
import proofs.«176165_j463856468564_1_alg».proof.Proof.RefBridge
import proofs.«176165_j463856468564_1_alg».proof.Proof.Region0
import proofs.«176165_j463856468564_1_alg».proof.Proof.Region1
import proofs.«176165_j463856468564_1_alg».proof.Proof.Region2
import proofs.«176165_j463856468564_1_alg».proof.Proof.Region3
import proofs.«176165_j463856468564_1_alg».proof.Proof.Region4
import proofs.«176165_j463856468564_1_alg».proof.Proof.Region5
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.ShloMosaic.StableHlo Idealize.ShloMosaic.ValueIdx Idealize.SL.Sem
open Cert.KernelIdeal Cert.KernelIdeal.Gen Cert.ReferenceIdeal.ReadP Cert.ReferenceIdeal.Bridge

variable (m : (ℓ : Loc nD τ sig) → Buf (Elt Ideal) ℓ) (ρ : Dev nD → PrngReg) (c : Dev nD)

/-- The six arguments as launched. -/
abbrev x0 : (⟨S250000x3, .f32⟩ : BufTy).Contents (Elt Ideal) := m ((c : Thread nD τ).loc main_arg0)
abbrev x1 : (⟨S2x4000000, .i32⟩ : BufTy).Contents (Elt Ideal) := m ((c : Thread nD τ).loc main_arg1)
abbrev x2 : (⟨S3x16, .f32⟩ : BufTy).Contents (Elt Ideal) := m ((c : Thread nD τ).loc main_arg2)
abbrev x3 : (⟨S16, .f32⟩ : BufTy).Contents (Elt Ideal) := m ((c : Thread nD τ).loc main_arg3)
abbrev x4 : (⟨S16x7, .f32⟩ : BufTy).Contents (Elt Ideal) := m ((c : Thread nD τ).loc main_arg4)
abbrev x5 : (⟨S7, .f32⟩ : BufTy).Contents (Elt Ideal) := m ((c : Thread nD τ).loc main_arg5)

/-- A buffer none of a host stretch's operations writes holds after the stretch what it held before. -/
local macro "kept" : tactic =>
  `(tactic| (dsimp only [hostOps0, hostOps0_1, hostOps0_2, hostOps1, hostOps2, hostOps4, hostOps5]; after_results_simp))

/-! ## Up to the first region: sources, targets, weights; the arguments -/

theorem src1 : W1 m ρ c (Proc.devRef .tc main_v3) = val_main_v3 (F := Ideal) (x1 m c) :=
  Host.src_of (W0 m ρ c) (x1 m c) rfl
theorem tgt1 : W1 m ρ c (Proc.devRef .tc main_v6) = val_main_v6 (F := Ideal) (x1 m c) :=
  Host.tgt_of (W0 m ρ c) (x1 m c) rfl
theorem src2 : W2 m ρ c (Proc.devRef .tc main_v3) = val_main_v3 (F := Ideal) (x1 m c) :=
  (by kept : StableHlo.after hostOps0_1 (W1 m ρ c) (Proc.devRef .tc main_v3) = W1 m ρ c (Proc.devRef .tc main_v3)).trans (src1 m ρ c)
theorem tgt2 : W2 m ρ c (Proc.devRef .tc main_v6) = val_main_v6 (F := Ideal) (x1 m c) :=
  (by kept : StableHlo.after hostOps0_1 (W1 m ρ c) (Proc.devRef .tc main_v6) = W1 m ρ c (Proc.devRef .tc main_v6)).trans (tgt1 m ρ c)
theorem nodeFactor2 : W2 m ρ c (Proc.devRef .tc main_v15) = val_main_v15 (F := Ideal) (x1 m c) :=
  Host.nodeFactor_of (W1 m ρ c) (x1 m c) (Host.degPos_of (W0 m ρ c) (x1 m c) rfl) (Host.degRsqrt_of (W0 m ρ c) (x1 m c) rfl)
    (Host.degZero_of (W0 m ρ c))
theorem src3 : W3 m ρ c (Proc.devRef .tc main_v3) = val_main_v3 (F := Ideal) (x1 m c) :=
  (by kept : StableHlo.after hostOps0_2 (W2 m ρ c) (Proc.devRef .tc main_v3) = W2 m ρ c (Proc.devRef .tc main_v3)).trans (src2 m ρ c)
theorem tgt3 : W3 m ρ c (Proc.devRef .tc main_v6) = val_main_v6 (F := Ideal) (x1 m c) :=
  (by kept : StableHlo.after hostOps0_2 (W2 m ρ c) (Proc.devRef .tc main_v6) = W2 m ρ c (Proc.devRef .tc main_v6)).trans (tgt2 m ρ c)
theorem wgt3 : W3 m ρ c (Proc.devRef .tc main_v31) = val_main_v32 (F := Ideal) (x1 m c) :=
  Host.weight_of (W2 m ρ c) (x1 m c) (nodeFactor2 m ρ c) (src2 m ρ c) (tgt2 m ρ c)

/-- An argument through the three stretches before the first region. -/
theorem arg0_3 : W3 m ρ c (Proc.devRef .tc main_arg0) = x0 m c :=
  (by kept : StableHlo.after hostOps0_2 (StableHlo.after hostOps0_1 (StableHlo.after hostOps0 (W0 m ρ c))) (Proc.devRef .tc main_arg0)
    = W0 m ρ c (Proc.devRef .tc main_arg0)).trans rfl
theorem arg2_3 : W3 m ρ c (Proc.devRef .tc main_arg2) = x2 m c :=
  (by kept : StableHlo.after hostOps0_2 (StableHlo.after hostOps0_1 (StableHlo.after hostOps0 (W0 m ρ c))) (Proc.devRef .tc main_arg2)
    = W0 m ρ c (Proc.devRef .tc main_arg2)).trans rfl
theorem arg3_3 : W3 m ρ c (Proc.devRef .tc main_arg3) = x3 m c :=
  (by kept : StableHlo.after hostOps0_2 (StableHlo.after hostOps0_1 (StableHlo.after hostOps0 (W0 m ρ c))) (Proc.devRef .tc main_arg3)
    = W0 m ρ c (Proc.devRef .tc main_arg3)).trans rfl
theorem arg4_3 : W3 m ρ c (Proc.devRef .tc main_arg4) = x4 m c :=
  (by kept : StableHlo.after hostOps0_2 (StableHlo.after hostOps0_1 (StableHlo.after hostOps0 (W0 m ρ c))) (Proc.devRef .tc main_arg4)
    = W0 m ρ c (Proc.devRef .tc main_arg4)).trans rfl
theorem arg5_3 : W3 m ρ c (Proc.devRef .tc main_arg5) = x5 m c :=
  (by kept : StableHlo.after hostOps0_2 (StableHlo.after hostOps0_1 (StableHlo.after hostOps0 (W0 m ρ c))) (Proc.devRef .tc main_arg5)
    = W0 m ρ c (Proc.devRef .tc main_arg5)).trans rfl

/-! ## Layer 1 -/

/-- After the first region: the dense features. -/
theorem dense1_4 : W4 m ρ c (Proc.devRef .tc main_v32) = val_main_v31 (F := Ideal) (x0 m c) (x2 m c) := by
  refine (W4_arr m ρ c 2).trans ((Region0.final (V3 m ρ) c).trans ?_)
  show Cert.Gcn.dense1 (W3 m ρ c (Proc.devRef .tc main_arg0)) (W3 m ρ c (Proc.devRef .tc main_arg2)) = _
  rw [arg0_3, arg2_3]
  exact (dense1_eq _ _).symm
theorem src4 : W4 m ρ c (Proc.devRef .tc main_v3) = val_main_v3 (F := Ideal) (x1 m c) :=
  (W4_of_ne m ρ c main_v3 (by decide)).trans (src3 m ρ c)
theorem tgt4 : W4 m ρ c (Proc.devRef .tc main_v6) = val_main_v6 (F := Ideal) (x1 m c) :=
  (W4_of_ne m ρ c main_v6 (by decide)).trans (tgt3 m ρ c)
theorem wgt4 : W4 m ρ c (Proc.devRef .tc main_v31) = val_main_v32 (F := Ideal) (x1 m c) :=
  (W4_of_ne m ρ c main_v31 (by decide)).trans (wgt3 m ρ c)
theorem arg3_4 : W4 m ρ c (Proc.devRef .tc main_arg3) = x3 m c := (W4_of_ne m ρ c main_arg3 (by decide)).trans (arg3_3 m ρ c)
theorem arg4_4 : W4 m ρ c (Proc.devRef .tc main_arg4) = x4 m c := (W4_of_ne m ρ c main_arg4 (by decide)).trans (arg4_3 m ρ c)
theorem arg5_4 : W4 m ρ c (Proc.devRef .tc main_arg5) = x5 m c := (W4_of_ne m ρ c main_arg5 (by decide)).trans (arg5_3 m ρ c)

/-- After the gather: the source nodes' dense rows. -/
theorem gather1_5 : W5 m ρ c (Proc.devRef .tc main_v39) = val_main_v39 (F := Ideal) (x0 m c) (x1 m c) (x2 m c) :=
  Host.gather1_of (W4 m ρ c) (x0 m c) (x1 m c) (x2 m c) (dense1_4 m ρ c) (src4 m ρ c)
theorem src5 : W5 m ρ c (Proc.devRef .tc main_v3) = val_main_v3 (F := Ideal) (x1 m c) :=
  (by kept : StableHlo.after hostOps1 (W4 m ρ c) (Proc.devRef .tc main_v3) = W4 m ρ c (Proc.devRef .tc main_v3)).trans (src4 m ρ c)
theorem tgt5 : W5 m ρ c (Proc.devRef .tc main_v6) = val_main_v6 (F := Ideal) (x1 m c) :=
  (by kept : StableHlo.after hostOps1 (W4 m ρ c) (Proc.devRef .tc main_v6) = W4 m ρ c (Proc.devRef .tc main_v6)).trans (tgt4 m ρ c)
theorem wgt5 : W5 m ρ c (Proc.devRef .tc main_v31) = val_main_v32 (F := Ideal) (x1 m c) :=
  (by kept : StableHlo.after hostOps1 (W4 m ρ c) (Proc.devRef .tc main_v31) = W4 m ρ c (Proc.devRef .tc main_v31)).trans (wgt4 m ρ c)
theorem arg3_5 : W5 m ρ c (Proc.devRef .tc main_arg3) = x3 m c :=
  (by kept : StableHlo.after hostOps1 (W4 m ρ c) (Proc.devRef .tc main_arg3) = W4 m ρ c (Proc.devRef .tc main_arg3)).trans (arg3_4 m ρ c)
theorem arg4_5 : W5 m ρ c (Proc.devRef .tc main_arg4) = x4 m c :=
  (by kept : StableHlo.after hostOps1 (W4 m ρ c) (Proc.devRef .tc main_arg4) = W4 m ρ c (Proc.devRef .tc main_arg4)).trans (arg4_4 m ρ c)
theorem arg5_5 : W5 m ρ c (Proc.devRef .tc main_arg5) = x5 m c :=
  (by kept : StableHlo.after hostOps1 (W4 m ρ c) (Proc.devRef .tc main_arg5) = W4 m ρ c (Proc.devRef .tc main_arg5)).trans (arg5_4 m ρ c)

/-- After the first scaling region: the weighted messages. -/
theorem scale1_6 : W6 m ρ c (Proc.devRef .tc main_v40) = val_main_v41 (F := Ideal) (x0 m c) (x1 m c) (x2 m c) := by
  refine (W6_arr m ρ c 2).trans ((Region1.final (V5 m ρ) c).trans ?_)
  show Cert.Gcn.scale16 (W5 m ρ c (Proc.devRef .tc main_v39)) (W5 m ρ c (Proc.devRef .tc main_v31)) = _
  rw [gather1_5, wgt5]
  exact (scale16_eq _ _ _).symm
theorem src6 : W6 m ρ c (Proc.devRef .tc main_v3) = val_main_v3 (F := Ideal) (x1 m c) :=
  (W6_of_ne m ρ c main_v3 (by decide)).trans (src5 m ρ c)
theorem tgt6 : W6 m ρ c (Proc.devRef .tc main_v6) = val_main_v6 (F := Ideal) (x1 m c) :=
  (W6_of_ne m ρ c main_v6 (by decide)).trans (tgt5 m ρ c)
theorem wgt6 : W6 m ρ c (Proc.devRef .tc main_v31) = val_main_v32 (F := Ideal) (x1 m c) := by
  refine (W6_arr m ρ c 1).trans ?_
  exact ((dat1 (V5 m ρ) c).arrAt_in 1 rfl _).trans ((A_eq1 (V5 m ρ) c 1).trans (wgt5 m ρ c))
theorem arg3_6 : W6 m ρ c (Proc.devRef .tc main_arg3) = x3 m c := (W6_of_ne m ρ c main_arg3 (by decide)).trans (arg3_5 m ρ c)
theorem arg4_6 : W6 m ρ c (Proc.devRef .tc main_arg4) = x4 m c := (W6_of_ne m ρ c main_arg4 (by decide)).trans (arg4_5 m ρ c)
theorem arg5_6 : W6 m ρ c (Proc.devRef .tc main_arg5) = x5 m c := (W6_of_ne m ρ c main_arg5 (by decide)).trans (arg5_5 m ρ c)

/-- After the sum into target nodes, and the bias as a row. -/
theorem scatter1_7 : W7 m ρ c (Proc.devRef .tc main_v43) = val_main_v44 (F := Ideal) (x0 m c) (x1 m c) (x2 m c) :=
  Host.scatter1_of (W6 m ρ c) (x0 m c) (x1 m c) (x2 m c) (scale1_6 m ρ c) (tgt6 m ρ c)
theorem biasRow1_7 : W7 m ρ c (Proc.devRef .tc main_v44) = shapeCast S1x16 (x3 m c) shapeCasts_S16_S1x16 :=
  Host.biasRow1_of (W6 m ρ c) (x3 m c) (arg3_6 m ρ c)
theorem src7 : W7 m ρ c (Proc.devRef .tc main_v3) = val_main_v3 (F := Ideal) (x1 m c) :=
  (by kept : StableHlo.after hostOps2 (W6 m ρ c) (Proc.devRef .tc main_v3) = W6 m ρ c (Proc.devRef .tc main_v3)).trans (src6 m ρ c)
theorem tgt7 : W7 m ρ c (Proc.devRef .tc main_v6) = val_main_v6 (F := Ideal) (x1 m c) :=
  (by kept : StableHlo.after hostOps2 (W6 m ρ c) (Proc.devRef .tc main_v6) = W6 m ρ c (Proc.devRef .tc main_v6)).trans (tgt6 m ρ c)
theorem wgt7 : W7 m ρ c (Proc.devRef .tc main_v31) = val_main_v32 (F := Ideal) (x1 m c) :=
  (by kept : StableHlo.after hostOps2 (W6 m ρ c) (Proc.devRef .tc main_v31) = W6 m ρ c (Proc.devRef .tc main_v31)).trans (wgt6 m ρ c)
theorem arg4_7 : W7 m ρ c (Proc.devRef .tc main_arg4) = x4 m c :=
  (by kept : StableHlo.after hostOps2 (W6 m ρ c) (Proc.devRef .tc main_arg4) = W6 m ρ c (Proc.devRef .tc main_arg4)).trans (arg4_6 m ρ c)
theorem arg5_7 : W7 m ρ c (Proc.devRef .tc main_arg5) = x5 m c :=
  (by kept : StableHlo.after hostOps2 (W6 m ρ c) (Proc.devRef .tc main_arg5) = W6 m ρ c (Proc.devRef .tc main_arg5)).trans (arg5_6 m ρ c)

/-- The [1, 16] row holds the bias entry for entry. -/
theorem biasRow1_apply (q : Fin 16) : shapeCast S1x16 (x3 m c) shapeCasts_S16_S1x16 (ix2 0 q) = x3 m c (ix1 q) :=
  shapeCast_a_1a_apply (x3 m c) shapeCasts_S16_S1x16 0 q

/-- After the first epilogue: the hidden features. -/
theorem hidden_8 : W8 m ρ c (Proc.devRef .tc main_v45) = val_main_v48 (F := Ideal) (x0 m c) (x1 m c) (x2 m c) (x3 m c) := by
  refine (W8_arr m ρ c 2).trans ((Region2.final (V7 m ρ) c).trans ?_)
  show Cert.Gcn.biasRelu16 (W7 m ρ c (Proc.devRef .tc main_v43)) (W7 m ρ c (Proc.devRef .tc main_v44)) = _
  rw [scatter1_7, biasRow1_7]
  exact (biasRelu16_eq _ _ _ _ _ (biasRow1_apply m c)).symm
theorem src8 : W8 m ρ c (Proc.devRef .tc main_v3) = val_main_v3 (F := Ideal) (x1 m c) :=
  (W8_of_ne m ρ c main_v3 (by decide)).trans (src7 m ρ c)
theorem tgt8 : W8 m ρ c (Proc.devRef .tc main_v6) = val_main_v6 (F := Ideal) (x1 m c) :=
  (W8_of_ne m ρ c main_v6 (by decide)).trans (tgt7 m ρ c)
theorem wgt8 : W8 m ρ c (Proc.devRef .tc main_v31) = val_main_v32 (F := Ideal) (x1 m c) :=
  (W8_of_ne m ρ c main_v31 (by decide)).trans (wgt7 m ρ c)
theorem arg4_8 : W8 m ρ c (Proc.devRef .tc main_arg4) = x4 m c := (W8_of_ne m ρ c main_arg4 (by decide)).trans (arg4_7 m ρ c)
theorem arg5_8 : W8 m ρ c (Proc.devRef .tc main_arg5) = x5 m c := (W8_of_ne m ρ c main_arg5 (by decide)).trans (arg5_7 m ρ c)

/-! ## Layer 2 -/

/-- After the second dense region. -/
theorem dense2_9 : W9 m ρ c (Proc.devRef .tc main_v46) = val_main_v49 (F := Ideal) (x0 m c) (x1 m c) (x2 m c) (x3 m c) (x4 m c) := by
  refine (W9_arr m ρ c 2).trans ((Region3.final (V8 m ρ) c).trans ?_)
  show Cert.Gcn.dense2 (W8 m ρ c (Proc.devRef .tc main_v45)) (W8 m ρ c (Proc.devRef .tc main_arg4)) = _
  rw [hidden_8, arg4_8]
  exact (dense2_eq _ _ _ _ _).symm
theorem src9 : W9 m ρ c (Proc.devRef .tc main_v3) = val_main_v3 (F := Ideal) (x1 m c) :=
  (W9_of_ne m ρ c main_v3 (by decide)).trans (src8 m ρ c)
theorem tgt9 : W9 m ρ c (Proc.devRef .tc main_v6) = val_main_v6 (F := Ideal) (x1 m c) :=
  (W9_of_ne m ρ c main_v6 (by decide)).trans (tgt8 m ρ c)
theorem wgt9 : W9 m ρ c (Proc.devRef .tc main_v31) = val_main_v32 (F := Ideal) (x1 m c) :=
  (W9_of_ne m ρ c main_v31 (by decide)).trans (wgt8 m ρ c)
theorem arg5_9 : W9 m ρ c (Proc.devRef .tc main_arg5) = x5 m c := (W9_of_ne m ρ c main_arg5 (by decide)).trans (arg5_8 m ρ c)

/-- After the second gather. -/
theorem gather2_10 : W10 m ρ c (Proc.devRef .tc main_v53)
    = val_main_v57 (F := Ideal) (x0 m c) (x1 m c) (x2 m c) (x3 m c) (x4 m c) :=
  Host.gather2_of (W9 m ρ c) (x0 m c) (x1 m c) (x2 m c) (x3 m c) (x4 m c) (dense2_9 m ρ c) (src9 m ρ c)
theorem tgt10 : W10 m ρ c (Proc.devRef .tc main_v6) = val_main_v6 (F := Ideal) (x1 m c) :=
  (by kept : StableHlo.after hostOps4 (W9 m ρ c) (Proc.devRef .tc main_v6) = W9 m ρ c (Proc.devRef .tc main_v6)).trans (tgt9 m ρ c)
theorem wgt10 : W10 m ρ c (Proc.devRef .tc main_v31) = val_main_v32 (F := Ideal) (x1 m c) :=
  (by kept : StableHlo.after hostOps4 (W9 m ρ c) (Proc.devRef .tc main_v31) = W9 m ρ c (Proc.devRef .tc main_v31)).trans (wgt9 m ρ c)
theorem arg5_10 : W10 m ρ c (Proc.devRef .tc main_arg5) = x5 m c :=
  (by kept : StableHlo.after hostOps4 (W9 m ρ c) (Proc.devRef .tc main_arg5) = W9 m ρ c (Proc.devRef .tc main_arg5)).trans (arg5_9 m ρ c)

/-- After the second scaling region. -/
theorem scale2_11 : W11 m ρ c (Proc.devRef .tc main_v54)
    = val_main_v59 (F := Ideal) (x0 m c) (x1 m c) (x2 m c) (x3 m c) (x4 m c) := by
  refine (W11_arr m ρ c 2).trans ((Region4.final (V10 m ρ) c).trans ?_)
  show Cert.Gcn.scale7 (W10 m ρ c (Proc.devRef .tc main_v53)) (W10 m ρ c (Proc.devRef .tc main_v31)) = _
  rw [gather2_10, wgt10]
  exact (scale7_eq _ _ _ _ _).symm
theorem tgt11 : W11 m ρ c (Proc.devRef .tc main_v6) = val_main_v6 (F := Ideal) (x1 m c) :=
  (W11_of_ne m ρ c main_v6 (by decide)).trans (tgt10 m ρ c)
theorem arg5_11 : W11 m ρ c (Proc.devRef .tc main_arg5) = x5 m c := (W11_of_ne m ρ c main_arg5 (by decide)).trans (arg5_10 m ρ c)

/-- After the second sum into target nodes, and the second bias as a row. -/
theorem scatter2_12 : W12 m ρ c (Proc.devRef .tc main_v57)
    = val_main_v62 (F := Ideal) (x0 m c) (x1 m c) (x2 m c) (x3 m c) (x4 m c) :=
  Host.scatter2_of (W11 m ρ c) (x0 m c) (x1 m c) (x2 m c) (x3 m c) (x4 m c) (scale2_11 m ρ c) (tgt11 m ρ c)
theorem biasRow2_12 : W12 m ρ c (Proc.devRef .tc main_v58) = shapeCast S1x7 (x5 m c) shapeCasts_S7_S1x7 :=
  Host.biasRow2_of (W11 m ρ c) (x5 m c) (arg5_11 m ρ c)

/-- The [1, 7] row holds the bias entry for entry. -/
theorem biasRow2_apply (q : Fin 7) : shapeCast S1x7 (x5 m c) shapeCasts_S7_S1x7 (ix2 0 q) = x5 m c (ix1 q) :=
  shapeCast_a_1a_apply (x5 m c) shapeCasts_S7_S1x7 0 q

/-- THE RESULT: after the last region the result buffer holds the reference's last stage of the six arguments. -/
theorem result_13 : W13 m ρ c (Proc.devRef .tc main_v59)
    = val_main_v65 (F := Ideal) (x0 m c) (x1 m c) (x2 m c) (x3 m c) (x4 m c) (x5 m c) := by
  refine (W13_arr m ρ c 2).trans ((Region5.final (V12 m ρ) c).trans ?_)
  show Cert.Gcn.bias7 (W12 m ρ c (Proc.devRef .tc main_v57)) (W12 m ρ c (Proc.devRef .tc main_v58)) = _
  rw [scatter2_12, biasRow2_12]
  exact (bias7_eq _ _ _ _ _ _ _ (biasRow2_apply m c)).symm

end Cert.KernelIdeal.Chain

end
-- ==== Proof.lean ====
/-
  A two-layer graph convolution over 250000 nodes and 4250000 directed edges (4000000 given, one self loop per
  node), as six kernel launches among host gathers and sums, against the same network written with whole-array
  operations. Both programs compute the edges' sources, targets and normalisation weights from the edge list by
  the same host operations. A layer of the kernel's program is a dense map done block of rows by block of rows
  (a product into a zero accumulator, its factors narrowed to a shorter float format first: the identity on
  extended reals, so each entry is the plain sum over the inner index), the gathered messages times the weight
  column, and a bias row added (clamped below at zero in the first layer); a layer of the reference is one whole
  product, the weight column times the gathered messages, and the bias spread and added. Over the extended reals
  the two differ only in the order of the two factors of the per-edge scaling, and multiplication there is
  commutative: no input needs to be finite for it, and the precondition is not opened.

  The three frames: the two kernel programs' are the generated ones; the reference's is its run with the result
  dropped. The idealization rewrote no operation, so there is nothing to preserve. For the value claim the
  kernel's run is read at its result buffer (the launch theorem of the generated frame called again with that
  buffer in the post), and that buffer's contents are walked back through the six regions and the host stretches
  to the reference's last stage of the six arguments.
-/
import proofs.«176165_j463856468564_1_alg».proof.Defs
import proofs.«176165_j463856468564_1_alg».proof.Proof.Gen.Kernel
import proofs.«176165_j463856468564_1_alg».proof.Proof.Gen.Kernel.Skeleton
import proofs.«176165_j463856468564_1_alg».proof.Proof.Gen.Kernel.Launch
import proofs.«176165_j463856468564_1_alg».proof.Proof.Gen.Kernel.Points
import proofs.«176165_j463856468564_1_alg».proof.Proof.Gen.Kernel.Frame
import proofs.«176165_j463856468564_1_alg».proof.Proof.Gen.KernelIdeal
import proofs.«176165_j463856468564_1_alg».proof.Proof.Gen.KernelIdeal.Skeleton
import proofs.«176165_j463856468564_1_alg».proof.Proof.Gen.KernelIdeal.Launch
import proofs.«176165_j463856468564_1_alg».proof.Proof.Gen.KernelIdeal.Points
import proofs.«176165_j463856468564_1_alg».proof.Proof.Gen.KernelIdeal.Frame
import proofs.«176165_j463856468564_1_alg».proof.Proof.Gen.ReferenceIdeal
import proofs.«176165_j463856468564_1_alg».proof.Proof.Gen.Pre_finite_inputs
import proofs.«176165_j463856468564_1_alg».proof.Proof.RefRun
import proofs.«176165_j463856468564_1_alg».proof.Proof.RefRead
import proofs.«176165_j463856468564_1_alg».proof.Proof.KernelRun
import proofs.«176165_j463856468564_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the reference's last stage of the kernel program's six arguments in their result
    buffers: the kernel's by the walk through its regions, the reference's by its run, the two memories agreeing
    on the arguments. -/
theorem algebraic : Cert.algebraic_KernelIdeal_ReferenceIdeal := by
  intro m ρ m' ρ' _ hagree
  refine ⟨fun c => Cert.ReferenceIdeal.ReadP.val_main_v65 (F := Ideal) (Cert.KernelIdeal.Chain.x0 m c)
      (Cert.KernelIdeal.Chain.x1 m c) (Cert.KernelIdeal.Chain.x2 m c) (Cert.KernelIdeal.Chain.x3 m c)
      (Cert.KernelIdeal.Chain.x4 m c) (Cert.KernelIdeal.Chain.x5 m c), ?_, ?_⟩
  · exact (θ_run Cert.KernelIdeal.defs _ _).mono
      (fun _ h c => ⟨(h c).1.trans (Cert.KernelIdeal.Chain.result_13 m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
